-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S1600000x32 : Shape := ⟨2, ![1600000, 32]⟩
abbrev S1600000 : Shape := ⟨1, ![1600000]⟩
abbrev S32x48 : Shape := ⟨2, ![32, 48]⟩
abbrev S48 : Shape := ⟨1, ![48]⟩
abbrev S96x128 : Shape := ⟨2, ![96, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg2 : IVec S1600000 32) (main_v48 : IVec S_ 1) (main_v50 : IVec S1600000 1) : IVec S_ 1 :=
  let main_c_19 : IVec S_ 32 := constantI S_ 32 100000#32
  let main_v51 : IVec S1600000 32 := broadcastInDim S1600000 ![] bcast_S_S1600000 main_c_19
  let main_v52 : IVec S1600000 1 := cmpi .slt main_arg2 main_v51
  let main_v53 : IVec S1600000 1 := andi main_v50 main_v52
  let main_c_20 : IVec S_ 1 := constantI S_ 1 1#1
  let main_v54 : IVec S_ 1 := (fun x v => Host.reduce IntOp.andi x v reducesTo_S1600000_S_d0 h_S_) main_v53 main_c_20
  let main_v55 : IVec S_ 1 := andi main_v48 main_v54
  main_v55

def fn_part2 {F : FTy → Type} [FloatOps F] (main_arg2 : IVec S1600000 32) (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S1600000 32 := broadcastInDim S1600000 ![] bcast_S_S1600000 main_c_18
  let main_v50 : IVec S1600000 1 := cmpi .sge main_arg2 main_v49
  fn_part3 (F := F) main_arg2 main_v48 main_v50

def fn_part1 {F : FTy → Type} [FloatOps F] (main_arg2 : IVec S1600000 32) (main_arg6 : FVec F S96x128 .f32) (main_arg7 : FVec F S96x128 .f32) (main_arg8 : FVec F S128 .f32) (main_arg9 : FVec F S128x64 .f32) (main_arg10 : FVec F S128x64 .f32) (main_arg11 : FVec F S64 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S96x128 .f32 := Host.absf main_arg6
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S96x128 .f32 := Host.absf main_arg7
  let main_cst_8 : FVec F S_ .f32 := constant S_ .f32 0x7F800000#32
  let main_v25 : FVec F S96x128 .f32 := broadcastInDim S96x128 ![] bcast_S_S96x128 main_cst_8
  let main_v26 : IVec S96x128 1 := cmpf .olt main_v24 main_v25
  let main_c_9 : IVec S_ 1 := constantI S_ 1 1#1
  let main_v27 : IVec S_ 1 := (fun x v => Host.reduce IntOp.andi x v reducesTo_S96x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_v33

def fn {F : FTy → Type} [FloatOps F] (main_arg0 : FVec F S100000x48 .f32) (main_arg1 : FVec F S1600000x32 .f32) (main_arg2 : IVec S1600000 32) (main_arg3 : IVec S1600000 32) (main_arg4 : FVec F S32x48 .f32) (main_arg5 : FVec F S48 .f32) (main_arg6 : FVec F S96x128 .f32) (main_arg7 : FVec F S96x128 .f32) (main_arg8 : FVec F S128 .f32) (main_arg9 : FVec F S128x64 .f32) (main_arg10 : FVec F S128x64 .f32) (main_arg11 : FVec F S64 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S32x48 .f32 := Host.absf main_arg4
  let main_cst_2 : FVec F S_ .f32 := constant S_ .f32 0x7F800000#32
  let main_v10 : FVec F S32x48 .f32 := broadcastInDim S32x48 ![] bcast_S_S32x48 main_cst_2
  let main_v11 : IVec S32x48 1 := cmpf .olt main_v9 main_v10
  let main_c_3 : IVec S_ 1 := constantI S_ 1 1#1
  let main_v12 : IVec S_ 1 := (fun x v => Host.reduce IntOp.andi x v reducesTo_S32x48_S_d0_1 h_S_) main_v11 main_c_3
  let main_v13 : IVec S_ 1 := andi main_v8 main_v12
  let main_v14 : FVec F S48 .f32 := Host.absf main_arg5
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg2 main_arg6 main_arg7 main_arg8 main_arg9 main_arg10 main_arg11 main_v13 main_v16
-- ==== Kernel.lean ====
abbrev S100000x48 : Shape := ⟨2, ![100000, 48]⟩
abbrev S1600000x32 : Shape := ⟨2, ![1600000, 32]⟩
abbrev S1600000 : Shape := ⟨1, ![1600000]⟩
abbrev S32x48 : Shape := ⟨2, ![32, 48]⟩
abbrev S48 : Shape := ⟨1, ![48]⟩
abbrev S96x128 : Shape := ⟨2, ![96, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x48 : Shape := ⟨2, ![1600000, 48]⟩
abbrev S6400x32 : Shape := ⟨2, ![6400, 32]⟩
abbrev S6400x48 : Shape := ⟨2, ![6400, 48]⟩
abbrev S1x48 : Shape := ⟨2, ![1, 48]⟩
abbrev S100000 : Shape := ⟨1, ![100000]⟩
abbrev S100000x1 : Shape := ⟨2, ![100000, 1]⟩
abbrev S100000x96 : Shape := ⟨2, ![100000, 96]⟩
abbrev S1600000x96 : Shape := ⟨2, ![1600000, 96]⟩
abbrev S100000x128 : Shape := ⟨2, ![100000, 128]⟩
abbrev S5000x96 : Shape := ⟨2, ![5000, 96]⟩
abbrev S5000x128 : Shape := ⟨2, ![5000, 128]⟩
abbrev S1x128 : Shape := ⟨2, ![1, 128]⟩
abbrev S1600000x128 : Shape := ⟨2, ![1600000, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 133
  | .vmem => 26
  | .smem => 0
  | _ => 0

abbrev hbmTy0_0 (i : Nat) : BufTy := match i % 128 with
  | 0 => ⟨S100000x48, .f32⟩
  | 1 => ⟨S1600000x32, .f32⟩
  | 2 => ⟨S1600000, .i32⟩
  | 3 => ⟨S1600000, .i32⟩
  | 4 => ⟨S32x48, .f32⟩
  | 5 => ⟨S48, .f32⟩
  | 6 => ⟨S96x128, .f32⟩
  | 7 => ⟨S96x128, .f32⟩
  | 8 => ⟨S128, .f32⟩
  | 9 => ⟨S128x64, .f32⟩
  | 10 => ⟨S128x64, .f32⟩
  | 11 => ⟨S64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1, .i32⟩
  | 21 => ⟨S_, .i32⟩
  | 22 => ⟨S1600000x1, .i32⟩
  | 23 => ⟨S1600000x1, .i1⟩
  | 24 => ⟨S1x1, .i32⟩
  | 25 => ⟨S1600000x1, .i32⟩
  | 26 => ⟨S1600000x1, .i1⟩
  | 27 => ⟨S1600000x1, .i1⟩
  | 28 => ⟨S_, .i1⟩
  | 29 => ⟨S1600000, .i1⟩
  | 30 => ⟨S1600000x48, .f32⟩
  | 31 => ⟨S1600000x48, .i1⟩
  | 32 => ⟨S_, .f32⟩
  | 33 => ⟨S1600000x48, .f32⟩
  | 34 => ⟨S1600000x48, .f32⟩
  | 35 => ⟨S1600000x48, .f32⟩
  | 36 => ⟨S_, .f32⟩
  | 37 => ⟨S100000x48, .f32⟩
  | 38 => ⟨S1600000x1, .i32⟩
  | 39 => ⟨S100000x48, .f32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x48, .f32⟩
  | 51 => ⟨S100000x48, .f32⟩
  | 52 => ⟨S100000x96, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1, .i32⟩
  | 62 => ⟨S_, .i32⟩
  | 63 => ⟨S1600000x1, .i32⟩
  | 64 => ⟨S1600000x1, .i1⟩
  | 65 => ⟨S1x1, .i32⟩
  | 66 => ⟨S1600000x1, .i32⟩
  | 67 => ⟨S1600000x1, .i1⟩
  | 68 => ⟨S1600000x1, .i1⟩
  | 69 => ⟨S_, .i1⟩
  | 70 => ⟨S1600000, .i1⟩
  | 71 => ⟨S1600000x96, .f32⟩
  | 72 => ⟨S1600000x96, .i1⟩
  | 73 => ⟨S_, .f32⟩
  | 74 => ⟨S1600000x96, .f32⟩
  | 75 => ⟨S1600000x96, .f32⟩
  | 76 => ⟨S_, .f32⟩
  | 77 => ⟨S100000x96, .f32⟩
  | 78 => ⟨S1600000x1, .i32⟩
  | 79 => ⟨S100000x96, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x96, .f32⟩
  | 91 => ⟨S100000x96, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1, .i32⟩
  | 102 => ⟨S_, .i32⟩
  | 103 => ⟨S1600000x1, .i32⟩
  | 104 => ⟨S1600000x1, .i1⟩
  | 105 => ⟨S1x1, .i32⟩
  | 106 => ⟨S1600000x1, .i32⟩
  | 107 => ⟨S1600000x1, .i1⟩
  | 108 => ⟨S1600000x1, .i1⟩
  | 109 => ⟨S_, .i1⟩
  | 110 => ⟨S1600000, .i1⟩
  | 111 => ⟨S1600000x128, .f32⟩
  | 112 => ⟨S1600000x128, .i1⟩
  | 113 => ⟨S_, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x48, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S100000x64, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | .local _ .vmem, ⟨0, _⟩ => ⟨S6400x32, .f32⟩
  | .local _ .vmem, ⟨1, _⟩ => ⟨S6400x32, .f32⟩
  | .local _ .vmem, ⟨2, _⟩ => ⟨S6400x48, .f32⟩
  | .local _ .vmem, ⟨3, _⟩ => ⟨S6400x48, .f32⟩
  | .local _ .vmem, ⟨4, _⟩ => ⟨S32x48, .f32⟩
  | .local _ .vmem, ⟨5, _⟩ => ⟨S48, .f32⟩
  | .local _ .vmem, ⟨6, _⟩ => ⟨S6400x48, .f32⟩
  | .local _ .vmem, ⟨7, _⟩ => ⟨S6400x48, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x128, .f32⟩
  | .local _ .vmem, ⟨13, _⟩ => ⟨S96x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S128x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_cst_0 : Ref sig .tc := ⟨.hbm, 40, rfl⟩
abbrev main_v5 : Ref sig .tc := ⟨.hbm, 41, rfl⟩
abbrev main_cst_1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_2 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v15 : Ref sig .tc := ⟨.hbm, 75, rfl⟩
abbrev main_cst_3 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_cst_4 : Ref sig .tc := ⟨.hbm, 80, rfl⟩
abbrev main_v19 : Ref sig .tc := ⟨.hbm, 81, rfl⟩
abbrev main_cst_5 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_cst_6 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v29 : Ref sig .tc := ⟨.hbm, 115, rfl⟩
abbrev main_cst_7 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_cst_8 : Ref sig .tc := ⟨.hbm, 120, rfl⟩
abbrev main_v33 : Ref sig .tc := ⟨.hbm, 121, rfl⟩
abbrev main_cst_9 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_cst_10 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x48_0 : S1600000.BroadcastsInDim S1600000x48 (![0] : Fin 1 → Fin S1600000x48.rank)
  bcast_S_S1600000x48 : S_.BroadcastsInDim S1600000x48 (![] : Fin 0 → Fin S1600000x48.rank)
  inb_S6400x32_S6400x32_0_0 : ∀ a, (![0, 0] : Fin 2 → Nat) a + S6400x32.size a ≤ S6400x32.size a
  h_S6400x32 : 0 < S6400x32.numel
  bitsLt_bf16_f32 : FTy.bits .bf16 < FTy.bits .f32
  inb_S32x48_S32x48_0_0 : ∀ a, (![0, 0] : Fin 2 → Nat) a + S32x48.size a ≤ S32x48.size a
  h_S32x48 : 0 < S32x48.numel
  inb_S48_S48_0 : ∀ a, (![0] : Fin 1 → Nat) a + S48.size a ≤ S48.size a
  h_S48 : 0 < S48.numel
  shapeCasts_S48_S1x48 : S48.ShapeCasts S1x48
  broadcasts_S1x48_S6400x48 : S1x48.Broadcasts S6400x48
  inb_S6400x48_S6400x48_0_0 : ∀ a, (![0, 0] : Fin 2 → Nat) a + S6400x48.size a ≤ S6400x48.size a
  h_S6400x48 : 0 < S6400x48.numel
  shapeCasts_S6400x48_S6400x48 : S6400x48.ShapeCasts S6400x48
  bcast_S_S100000x48 : S_.BroadcastsInDim S100000x48 (![] : Fin 0 → Fin S100000x48.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  concatenates_S100000x48_S100000x48_S100000x96_d1 : Shape.Concatenates [S100000x48, S100000x48] S100000x96 1
  bcast_S1600000_S1600000x96_0 : S1600000.BroadcastsInDim S1600000x96 (![0] : Fin 1 → Fin S1600000x96.rank)
  bcast_S_S1600000x96 : S_.BroadcastsInDim S1600000x96 (![] : Fin 0 → Fin S1600000x96.rank)
  bcast_S_S100000x96 : S_.BroadcastsInDim S100000x96 (![] : Fin 0 → Fin S100000x96.rank)
  bcast_S100000x1_S100000x96_0_1 : S100000x1.BroadcastsInDim S100000x96 (![0, 1] : Fin 2 → Fin S100000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x48_S1600000x1_S1600000x48_1_0_n_n_0_1_148_wf : GatherDims.WF S100000x48 S1600000x1 S1600000x48 [1] [0] [] [0] [] 1 ![1, 48]
  dot_S6400x32_S32x48_S6400x48_1_0_0_1_n_n_wf : DotDims.WF S6400x32 S32x48 S6400x48 [1] [0] [0] [1] [] []
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S5000x96_S96x128_S5000x128_1_0_0_1_n_n_wf : DotDims.WF S5000x96 S96x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S1600000x32.size a
  hwx0_0 : ∀ i : grid0.Coords, EltTy.bits .f32 = 32 ∨ (Rect.block (s := S1600000x32) S6400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x48.size a ≤ S1600000x48.size a
  hwx0_1 : ∀ i : grid0.Coords, EltTy.bits .f32 = 32 ∨ (Rect.block (s := S1600000x48) S6400x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x48.size a ≤ S32x48.size a
  hwx0_2 : ∀ i : grid0.Coords, EltTy.bits .f32 = 32 ∨ (Rect.block (s := S32x48) S32x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48.size a ≤ S48.size a
  hwx0_3 : ∀ i : grid0.Coords, EltTy.bits .f32 = 32 ∨ (Rect.block (s := S48) S48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x48.size a ≤ S1600000x48.size a
  hwx0_4 : ∀ i : grid0.Coords, EltTy.bits .f32 = 32 ∨ (Rect.block (s := S1600000x48) S6400x48.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S100000x96.size a
  hwx1_1 : ∀ i : grid1.Coords, EltTy.bits .f32 = 32 ∨ (Rect.block (s := S100000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x128.size a ≤ S96x128.size a
  hwx1_2 : ∀ i : grid1.Coords, EltTy.bits .f32 = 32 ∨ (Rect.block (s := S96x128) S96x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x128.size a ≤ S96x128.size a
  hwx1_3 : ∀ i : grid1.Coords, EltTy.bits .f32 = 32 ∨ (Rect.block (s := S96x128) S96x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def dot_S6400x32_S32x48_S6400x48_1_0_0_1_n_n : DotDims S6400x32 S32x48 S6400x48 where
  lhsContracting := [1]
  rhsContracting := [0]
  lhsNonContracting := [0]
  rhsNonContracting := [1]
  lhsBatch := []
  rhsBatch := []
  wf := dot_S6400x32_S32x48_S6400x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg1) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6400x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S6400x48.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S96x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x48 : Shape := ⟨2, ![100000, 48]⟩
abbrev S1600000x32 : Shape := ⟨2, ![1600000, 32]⟩
abbrev S1600000 : Shape := ⟨1, ![1600000]⟩
abbrev S32x48 : Shape := ⟨2, ![32, 48]⟩
abbrev S48 : Shape := ⟨1, ![48]⟩
abbrev S96x128 : Shape := ⟨2, ![96, 128]⟩
abbrev S128 : Shape := ⟨1, ![128]⟩
abbrev S128x64 : Shape := ⟨2, ![128, 64]⟩
abbrev S64 : Shape := ⟨1, ![64]⟩
abbrev S1600000x48 : Shape := ⟨2, ![1600000, 48]⟩
abbrev S1x48 : Shape := ⟨2, ![1, 48]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x96 : Shape := ⟨2, ![100000, 96]⟩
abbrev S1600000x96 : Shape := ⟨2, ![1600000, 96]⟩
abbrev S100000x128 : Shape := ⟨2, ![100000, 128]⟩
abbrev S1x128 : Shape := ⟨2, ![1, 128]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S32x48, .f32⟩
  | .hbm, ⟨5, _⟩ => ⟨S48, .f32⟩
  | .hbm, ⟨6, _⟩ => ⟨S96x128, .f32⟩
  | .hbm, ⟨7, _⟩ => ⟨S96x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1600000x48, .f32⟩
  | .hbm, ⟨13, _⟩ => ⟨S1x48, .f32⟩
  | .hbm, ⟨14, _⟩ => ⟨S1600000x48, .f32⟩
  | .hbm, ⟨15, _⟩ => ⟨S1600000x48, .f32⟩
  | .hbm, ⟨16, _⟩ => ⟨S_, .f32⟩
  | .hbm, ⟨17, _⟩ => ⟨S1600000x48, .f32⟩
  | .hbm, ⟨18, _⟩ => ⟨S1600000x48, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x48, .f32⟩
  | .hbm, ⟨28, _⟩ => ⟨S1600000x48, .f32⟩
  | .hbm, ⟨29, _⟩ => ⟨S_, .f32⟩
  | .hbm, ⟨30, _⟩ => ⟨S100000x48, .f32⟩
  | .hbm, ⟨31, _⟩ => ⟨S1600000x1, .i32⟩
  | .hbm, ⟨32, _⟩ => ⟨S100000x48, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x48, .f32⟩
  | .hbm, ⟨44, _⟩ => ⟨S100000x48, .f32⟩
  | .hbm, ⟨45, _⟩ => ⟨S100000x96, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x96, .f32⟩
  | .hbm, ⟨55, _⟩ => ⟨S_, .f32⟩
  | .hbm, ⟨56, _⟩ => ⟨S100000x96, .f32⟩
  | .hbm, ⟨57, _⟩ => ⟨S1600000x1, .i32⟩
  | .hbm, ⟨58, _⟩ => ⟨S100000x96, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x96, .f32⟩
  | .hbm, ⟨70, _⟩ => ⟨S100000x96, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S48_S1x48_1 : S48.BroadcastsInDim S1x48 (![1] : Fin 1 → Fin S1x48.rank)
  bcast_S1x48_S1600000x48_0_1 : S1x48.BroadcastsInDim S1600000x48 (![0, 1] : Fin 2 → Fin S1600000x48.rank)
  bcast_S_S1600000x48 : S_.BroadcastsInDim S1600000x48 (![] : Fin 0 → Fin S1600000x48.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  concatenates_S100000x48_S100000x48_S100000x96_d1 : Shape.Concatenates [S100000x48, S100000x48] S100000x96 1
  bcast_S_S100000x96 : S_.BroadcastsInDim S100000x96 (![] : Fin 0 → Fin S100000x96.rank)
  bcast_S100000x1_S100000x96_0_1 : S100000x1.BroadcastsInDim S100000x96 (![0, 1] : Fin 2 → Fin S100000x96.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S1600000x32_S32x48_S1600000x48_1_0_0_1_n_n_wf : DotDims.WF S1600000x32 S32x48 S1600000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S100000x96_S96x128_S100000x128_1_0_0_1_n_n_wf : DotDims.WF S100000x96 S96x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S1600000x32_S32x48_S1600000x48_1_0_0_1_n_n : DotDims S1600000x32 S32x48 S1600000x48 where
  lhsContracting := [1]
  rhsContracting := [0]
  lhsNonContracting := [0]
  rhsNonContracting := [1]
  lhsBatch := []
  rhsBatch := []
  wf := dot_S1600000x32_S32x48_S1600000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostGlue.lean ====
/-
  The host operations between the kernel's three launches, each stretch named once as a function of its operands
  (the kernel program's own operations, in its own order):
    * `take48` / `take96` / `take128`: row gather by an index vector with negative indices wrapped once, rows whose
      wrapped index falls outside [0, 99999] replaced by a fill pattern;
    * `segMean48` / `segMean96` / `segMean128`: rows added into their destination node, divided by max(in-degree, 1);
    * `concatH`: node features beside their neighbour means.
-/
import proofs.«414895_j2697239462581_2_alg».proof.Proof.Gen.KernelIdeal

noncomputable section

namespace Cert.Sage

open Cert.KernelIdeal Cert.KernelIdeal.Gen Idealize.ShloMosaic Idealize.ShloMosaic.TcCoe Idealize.SL.Sem Idealize.ShloMosaic.StableHlo

variable {F : FTy → Type} [FloatOps F]

/-- The index vector with negative entries shifted up by the node count, as a column. -/
def wrapCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: is the wrapped index inside [0, 99999]? -/
def inRange (src : (⟨S1600000, .i32⟩ : BufTy).Contents (Elt F)) : (⟨S1600000, .i1⟩ : BufTy).Contents (Elt F) :=
  Host.reduce IntOp.andi
    (andi (cmpi .sge (wrapCol (F := F) src) (broadcastInDim S1600000x1 ![] bcast_S_S1600000x1 (constantI S_ 32 0#32)))
      (cmpi .sle (wrapCol (F := F) src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Rows of a 48-wide table gathered by the wrapped indices, out-of-range rows filled. -/
def take48 (x : (⟨S100000x48, .f32⟩ : BufTy).Contents (Elt F)) (src : (⟨S1600000, .i32⟩ : BufTy).Contents (Elt F)) : (⟨S1600000x48, .f32⟩ : BufTy).Contents (Elt F) :=
  select (broadcastInDim S1600000x48 ![0] bcast_S1600000_S1600000x48_0 (inRange (F := F) src))
    (Host.gather gather_S100000x48_S1600000x1_S1600000x48_1_0_n_n_0_1_148 x (wrapCol (F := F) src))
    (broadcastInDim S1600000x48 ![] bcast_S_S1600000x48 (constant S_ .f32 0x7FC00000#32))

/-- The same for a 96-wide table. -/
def take96 (x : (⟨S100000x96, .f32⟩ : BufTy).Contents (Elt F)) (src : (⟨S1600000, .i32⟩ : BufTy).Contents (Elt F)) : (⟨S1600000x96, .f32⟩ : BufTy).Contents (Elt F) :=
  select (broadcastInDim S1600000x96 ![0] bcast_S1600000_S1600000x96_0 (inRange (F := F) src))
    (Host.gather gather_S100000x96_S1600000x1_S1600000x96_1_0_n_n_0_1_196 x (wrapCol (F := F) src))
    (broadcastInDim S1600000x96 ![] bcast_S_S1600000x96 (constant S_ .f32 0x7FC00000#32))

/-- The same for a 128-wide table. -/
def take128 (x : (⟨S100000x128, .f32⟩ : BufTy).Contents (Elt F)) (src : (⟨S1600000, .i32⟩ : BufTy).Contents (Elt F)) : (⟨S1600000x128, .f32⟩ : BufTy).Contents (Elt F) :=
  select (broadcastInDim S1600000x128 ![0] bcast_S1600000_S1600000x128_0 (inRange (F := F) src))
    (Host.gather gather_S100000x128_S1600000x1_S1600000x128_1_0_n_n_0_1_1128 x (wrapCol (F := F) src))
    (broadcastInDim S1600000x128 ![] bcast_S_S1600000x128 (constant S_ .f32 0x7FC00000#32))

/-- max(in-degree, 1) per node, as a column. -/
def degCol (dst : (⟨S1600000, .i32⟩ : BufTy).Contents (Elt F)) : (⟨S100000x1, .f32⟩ : BufTy).Contents (Elt F) :=
  broadcastInDim S100000x1 ![0] bcast_S100000_S100000x1_0
    (maximumf (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- Mean over incoming edges of 48-wide messages. -/
def segMean48 (msgs : (⟨S1600000x48, .f32⟩ : BufTy).Contents (Elt F)) (dst : (⟨S1600000, .i32⟩ : BufTy).Contents (Elt F)) : (⟨S100000x48, .f32⟩ : BufTy).Contents (Elt F) :=
  Host.divf (Host.scatterAdd scatter_S100000x48_S1600000x1_S1600000x48_1_0_0_1
      (broadcastInDim S100000x48 ![] bcast_S_S100000x48 (constant S_ .f32 0x00000000#32))
      (broadcastInDim S1600000x1 ![0] bcast_S1600000_S1600000x1_0 dst) msgs)
    (broadcastInDim S100000x48 ![0, 1] bcast_S100000x1_S100000x48_0_1 (degCol (F := F) dst))

/-- Mean over incoming edges of 96-wide messages. -/
def segMean96 (msgs : (⟨S1600000x96, .f32⟩ : BufTy).Contents (Elt F)) (dst : (⟨S1600000, .i32⟩ : BufTy).Contents (Elt F)) : (⟨S100000x96, .f32⟩ : BufTy).Contents (Elt F) :=
  Host.divf (Host.scatterAdd scatter_S100000x96_S1600000x1_S1600000x96_1_0_0_1
      (broadcastInDim S100000x96 ![] bcast_S_S100000x96 (constant S_ .f32 0x00000000#32))
      (broadcastInDim S1600000x1 ![0] bcast_S1600000_S1600000x1_0 dst) msgs)
    (broadcastInDim S100000x96 ![0, 1] bcast_S100000x1_S100000x96_0_1 (degCol (F := F) dst))

/-- Mean over incoming edges of 128-wide messages. -/
def segMean128 (msgs : (⟨S1600000x128, .f32⟩ : BufTy).Contents (Elt F)) (dst : (⟨S1600000, .i32⟩ : BufTy).Contents (Elt F)) : (⟨S100000x128, .f32⟩ : BufTy).Contents (Elt F) :=
  Host.divf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) msgs)
    (broadcastInDim S100000x128 ![0, 1] bcast_S100000x1_S100000x128_0_1 (degCol (F := F) dst))

/-- Node features beside their neighbour means. -/
def concatH (x hn : (⟨S100000x48, .f32⟩ : BufTy).Contents (Elt F)) : (⟨S100000x96, .f32⟩ : BufTy).Contents (Elt F) :=
  concatenate S100000x96 1 [⟨S100000x48, x⟩, ⟨S100000x48, hn⟩] concatenates_S100000x48_S100000x48_S100000x96_d1

end Cert.Sage

end
-- ==== Proof.Stretch.lean ====
/-
  The six stretches of host operations between the launches, each read back at the buffers later stages use: from
  any contents W, a stretch leaves its result buffer at the named function (the gathers, the neighbour means, the
  concatenation) of what W held at its operands, and leaves every buffer it does not write as it was.
-/
import proofs.«414895_j2697239462581_2_alg».proof.Proof.Gen.KernelIdeal.Launch
import proofs.«414895_j2697239462581_2_alg».proof.Proof.HostGlue
import Idealize.ShloMosaic.Lib.StableHlo.Run

noncomputable section

namespace Cert.Sage

open Cert.KernelIdeal Cert.KernelIdeal.Gen Idealize.ShloMosaic Idealize.ShloMosaic.TcCoe Idealize.SL.Sem Idealize.ShloMosaic.StableHlo

variable {F : FTy → Type} [FloatOps F]

/-- Contents carried to a buffer's own type and back are the contents. -/
private theorem ofBuf_toBuf {T : BufTy} (x : StableHlo.TRef sig T) (v : T.Contents (Elt F)) : x.ofBuf (x.toBuf v) = v := by
  obtain ⟨r, h, _, _⟩ := x
  subst h
  rfl

/-- The first gather: source-node rows of the node features. -/
theorem stretch0_v0 (W : Valuation τ sig (Elt F)) :
    StableHlo.after hostOps0 W (Proc.devRef .tc main_v0) = take48 (F := F) (W (Proc.devRef .tc main_arg0)) (W (Proc.devRef .tc main_arg2)) := by
  have e0 : (StableHlo.TRef.of main_arg0 : StableHlo.TRef sig ⟨S100000x48, .f32⟩).ofBuf (W (Proc.devRef .tc main_arg0))
      = W (Proc.devRef .tc main_arg0) := rfl
  have e2 : (StableHlo.TRef.of main_arg2 : StableHlo.TRef sig ⟨S1600000, .i32⟩).ofBuf (W (Proc.devRef .tc main_arg2))
      = W (Proc.devRef .tc main_arg2) := rfl
  have er : ∀ v : (⟨S1600000x48, .f32⟩ : BufTy).Contents (Elt F),
      (StableHlo.TRef.of main_v0 : StableHlo.TRef sig ⟨S1600000x48, .f32⟩).toBuf v = v := fun _ => rfl
  simp only [hostOps0]
  after_results_simp
  simp only [ofBuf_toBuf, e0, e2, er]
  unfold take48 inRange wrapCol
  rfl

/-- The first gather writes none of the arrays the first launch also reads. -/
theorem stretch0_keep (W : Valuation τ sig (Elt F)) :
    StableHlo.after hostOps0 W (Proc.devRef .tc main_arg1) = W (Proc.devRef .tc main_arg1)
    ∧ StableHlo.after hostOps0 W (Proc.devRef .tc main_arg4) = W (Proc.devRef .tc main_arg4)
    ∧ StableHlo.after hostOps0 W (Proc.devRef .tc main_arg5) = W (Proc.devRef .tc main_arg5) := by
  refine ⟨?_, ?_, ?_⟩ <;>
    exact StableHlo.after_of_forall_not_mem _ _ (List.forall_iff_forall_mem.mp (by
      simp only [hostOps0, List.Forall, StableHlo.nullary_writes, StableHlo.unary_writes, StableHlo.binary_writes,
        StableHlo.ternary_writes, Finset.mem_singleton]
      repeat' apply And.intro
      all_goals exact StableHlo.devRef_ne_of_ne (by decide)))

/-- The first neighbour mean and the concatenation. -/
theorem stretch1_v14 (W : Valuation τ sig (Elt F)) :
    StableHlo.after hostOps1 W (Proc.devRef .tc main_v14)
      = concatH (F := F) (W (Proc.devRef .tc main_arg0)) (segMean48 (F := F) (W (Proc.devRef .tc main_v1)) (W (Proc.devRef .tc main_arg3))) := by
  unfold concatH
  simp only [hostOps1, after_cons, after_nil]
  rw [binary_result]
  refine congrArg₂ (fun a b => concatenate S100000x96 1 [⟨S100000x48, a⟩, ⟨S100000x48, b⟩]
    concatenates_S100000x48_S100000x48_S100000x96_d1) ?_ ?_
  · after_results_simp
  · after_results_simp
    unfold segMean48 degCol
    rfl

/-- The second gather. -/
theorem stretch1_1_v15 (W : Valuation τ sig (Elt F)) :
    StableHlo.after hostOps1_1 W (Proc.devRef .tc main_v15) = take96 (F := F) (W (Proc.devRef .tc main_v14)) (W (Proc.devRef .tc main_arg2)) := by
  have e0 : (StableHlo.TRef.of main_v14 : StableHlo.TRef sig ⟨S100000x96, .f32⟩).ofBuf (W (Proc.devRef .tc main_v14))
      = W (Proc.devRef .tc main_v14) := rfl
  have e2 : (StableHlo.TRef.of main_arg2 : StableHlo.TRef sig ⟨S1600000, .i32⟩).ofBuf (W (Proc.devRef .tc main_arg2))
      = W (Proc.devRef .tc main_arg2) := rfl
  have er : ∀ v : (⟨S1600000x96, .f32⟩ : BufTy).Contents (Elt F),
      (StableHlo.TRef.of main_v15 : StableHlo.TRef sig ⟨S1600000x96, .f32⟩).toBuf v = v := fun _ => rfl
  simp only [hostOps1_1]
  after_results_simp
  simp only [ofBuf_toBuf, e0, e2, er]
  unfold take96 inRange wrapCol
  rfl

/-- The second gather leaves the concatenated features as they were. -/
theorem stretch1_1_keep (W : Valuation τ sig (Elt F)) :
    StableHlo.after hostOps1_1 W (Proc.devRef .tc main_v14) = W (Proc.devRef .tc main_v14) := by
  exact StableHlo.after_of_forall_not_mem _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (by decide)))

/-- The second neighbour mean. -/
theorem stretch1_2_v27 (W : Valuation τ sig (Elt F)) :
    StableHlo.after hostOps1_2 W (Proc.devRef .tc main_v27) = segMean96 (F := F) (W (Proc.devRef .tc main_v15)) (W (Proc.devRef .tc main_arg3)) := by
  after_results
  unfold segMean96 degCol
  rfl

/-- The second neighbour mean leaves the concatenated features as they were. -/
theorem stretch1_2_keep (W : Valuation τ sig (Elt F)) :
    StableHlo.after hostOps1_2 W (Proc.devRef .tc main_v14) = W (Proc.devRef .tc main_v14) := by
  exact StableHlo.after_of_forall_not_mem _ _ (List.forall_iff_forall_mem.mp (by
    simp only [hostOps1_2, List.Forall, StableHlo.nullary_writes, StableHlo.unary_writes, StableHlo.binary_writes,
      StableHlo.ternary_writes, Finset.mem_singleton]
    repeat' apply And.intro
    all_goals exact StableHlo.devRef_ne_of_ne (by decide)))

/-- The third gather. -/
theorem stretch2_v29 (W : Valuation τ sig (Elt F)) :
    StableHlo.after hostOps2 W (Proc.devRef .tc main_v29) = take128 (F := F) (W (Proc.devRef .tc main_v28)) (W (Proc.devRef .tc main_arg2)) := by
  have e0 : (StableHlo.TRef.of main_v28 : StableHlo.TRef sig ⟨S100000x128, .f32⟩).ofBuf (W (Proc.devRef .tc main_v28))
      = W (Proc.devRef .tc main_v28) := rfl
  have e2 : (StableHlo.TRef.of main_arg2 : StableHlo.TRef sig ⟨S1600000, .i32⟩).ofBuf (W (Proc.devRef .tc main_arg2))
      = W (Proc.devRef .tc main_arg2) := rfl
  have er : ∀ v : (⟨S1600000x128, .f32⟩ : BufTy).Contents (Elt F),
      (StableHlo.TRef.of main_v29 : StableHlo.TRef sig ⟨S1600000x128, .f32⟩).toBuf v = v := fun _ => rfl
  simp only [hostOps2]
  after_results_simp
  simp only [ofBuf_toBuf, e0, e2, er]
  unfold take128 inRange wrapCol
  rfl

/-- The third gather leaves the hidden array as it was. -/
theorem stretch2_keep (W : Valuation τ sig (Elt F)) :
    StableHlo.after hostOps2 W (Proc.devRef .tc main_v28) = W (Proc.devRef .tc main_v28) := by
  exact StableHlo.after_of_forall_not_mem _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- The third neighbour mean. -/
theorem stretch2_1_v41 (W : Valuation τ sig (Elt F)) :
    StableHlo.after hostOps2_1 W (Proc.devRef .tc main_v41) = segMean128 (F := F) (W (Proc.devRef .tc main_v29)) (W (Proc.devRef .tc main_arg3)) := by
  after_results
  unfold segMean128 degCol
  rfl

/-- The third neighbour mean leaves the hidden array as it was. -/
theorem stretch2_1_keep (W : Valuation τ sig (Elt F)) :
    StableHlo.after hostOps2_1 W (Proc.devRef .tc main_v28) = W (Proc.devRef .tc main_v28) := by
  exact StableHlo.after_of_forall_not_mem _ _ (List.forall_iff_forall_mem.mp (by
    simp only [hostOps2_1, List.Forall, StableHlo.nullary_writes, StableHlo.unary_writes, StableHlo.binary_writes,
      StableHlo.ternary_writes, Finset.mem_singleton]
    repeat' apply And.intro
    all_goals exact StableHlo.devRef_ne_of_ne (by decide)))

end Cert.Sage

end
-- ==== Proof.Spec.lean ====
/-
  The three dense stages of the message-passing network, each as ONE whole-array function of its operands, written with
  the host operations the reference itself uses:
    * the edge stage     relu (x · We + be) ⊙ g            over all 1,600,000 edges (g the gathered source rows),
    * the first layer    relu (h · Ws + hn · Wn + b)       over all 100,000 nodes,
    * the second layer   h · Ws + hn · Wn + b              over all 100,000 nodes.
  The reference's staged values are these functions of its earlier stages (by unfolding), and each kernel region's
  output array is the same function of the arrays the region finds (the three region modules).
-/
import proofs.«414895_j2697239462581_2_alg».proof.Proof.Gen.ReferenceIdeal.Read

noncomputable section

namespace Cert.Sage

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The edge stage: the encoded edge features, rectified, times the gathered source-node rows. -/
def edgeGate (x : (⟨S1600000x32, .f32⟩ : BufTy).Contents (Elt F)) (g : (⟨S1600000x48, .f32⟩ : BufTy).Contents (Elt F))
    (W : (⟨S32x48, .f32⟩ : BufTy).Contents (Elt F)) (b : (⟨S48, .f32⟩ : BufTy).Contents (Elt F)) :
    (⟨S1600000x48, .f32⟩ : BufTy).Contents (Elt F) :=
  mulf g (maximumf (addf (Host.dotGeneral dot_S1600000x32_S32x48_S1600000x48_1_0_0_1_n_n none x W)
      (broadcastInDim S1600000x48 ![0, 1] bcast_S1x48_S1600000x48_0_1 (broadcastInDim S1x48 ![1] bcast_S48_S1x48_1 b)))
    (broadcastInDim S1600000x48 ![] bcast_S_S1600000x48 (constant S_ .f32 0x00000000#32)))

/-- The first layer: self term plus neighbour term plus bias, rectified. -/
def layerRelu (h hn : (⟨S100000x96, .f32⟩ : BufTy).Contents (Elt F)) (Ws Wn : (⟨S96x128, .f32⟩ : BufTy).Contents (Elt F))
    (b : (⟨S128, .f32⟩ : BufTy).Contents (Elt F)) : (⟨S100000x128, .f32⟩ : BufTy).Contents (Elt F) :=
  maximumf (addf (addf (Host.dotGeneral dot_S100000x96_S96x128_S100000x128_1_0_0_1_n_n none h Ws)
        (Host.dotGeneral dot_S100000x96_S96x128_S100000x128_1_0_0_1_n_n none hn Wn))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer: self term plus neighbour term plus bias. -/
def layerLin (h hn : (⟨S100000x128, .f32⟩ : BufTy).Contents (Elt F)) (Ws Wn : (⟨S128x64, .f32⟩ : BufTy).Contents (Elt F))
    (b : (⟨S64, .f32⟩ : BufTy).Contents (Elt F)) : (⟨S100000x64, .f32⟩ : BufTy).Contents (Elt F) :=
  addf (addf (Host.dotGeneral dot_S100000x128_S128x64_S100000x64_1_0_0_1_n_n none h Ws)
      (Host.dotGeneral dot_S100000x128_S128x64_S100000x64_1_0_0_1_n_n none hn Wn))
    (broadcastInDim S100000x64 ![0, 1] bcast_S1x64_S100000x64_0_1 (broadcastInDim S1x64 ![1] bcast_S64_S1x64_1 b))

/-- The reference's message array is the edge stage of its gathered rows. -/
theorem val_main_v12_eq (x0 : (⟨S100000x48, .f32⟩ : BufTy).Contents (Elt F)) (x1 : (⟨S1600000x32, .f32⟩ : BufTy).Contents (Elt F))
    (x2 : (⟨S1600000, .i32⟩ : BufTy).Contents (Elt F)) (x4 : (⟨S32x48, .f32⟩ : BufTy).Contents (Elt F)) (x5 : (⟨S48, .f32⟩ : BufTy).Contents (Elt F)) :
    val_main_v12 (F := F) x0 x1 x2 x4 x5 = edgeGate x1 (val_main_v11 (F := F) x0 x2) x4 x5 := rfl

/-- The reference's hidden array is the first layer of its concatenated features and their neighbour means. -/
theorem val_main_v51_eq (x0 : (⟨S100000x48, .f32⟩ : BufTy).Contents (Elt F)) (x1 : (⟨S1600000x32, .f32⟩ : BufTy).Contents (Elt F))
    (x2 x3 : (⟨S1600000, .i32⟩ : BufTy).Contents (Elt F)) (x4 : (⟨S32x48, .f32⟩ : BufTy).Contents (Elt F)) (x5 : (⟨S48, .f32⟩ : BufTy).Contents (Elt F))
    (x6 x7 : (⟨S96x128, .f32⟩ : BufTy).Contents (Elt F)) (x8 : (⟨S128, .f32⟩ : BufTy).Contents (Elt F)) :
    val_main_v51 (F := F) x0 x1 x2 x3 x4 x5 x6 x7 x8
      = layerRelu (val_main_v25 (F := F) x0 x1 x2 x3 x4 x5) (val_main_v44 (F := F) x0 x1 x2 x3 x4 x5) x6 x7 x8 := rfl

/-- The reference's result is the second layer of its hidden array and that array's neighbour means. -/
theorem val_main_v76_eq' (x0 : (⟨S100000x48, .f32⟩ : BufTy).Contents (Elt F)) (x1 : (⟨S1600000x32, .f32⟩ : BufTy).Contents (Elt F))
    (x2 x3 : (⟨S1600000, .i32⟩ : BufTy).Contents (Elt F)) (x4 : (⟨S32x48, .f32⟩ : BufTy).Contents (Elt F)) (x5 : (⟨S48, .f32⟩ : BufTy).Contents (Elt F))
    (x6 x7 : (⟨S96x128, .f32⟩ : BufTy).Contents (Elt F)) (x8 : (⟨S128, .f32⟩ : BufTy).Contents (Elt F))
    (x9 x10 : (⟨S128x64, .f32⟩ : BufTy).Contents (Elt F)) (x11 : (⟨S64, .f32⟩ : BufTy).Contents (Elt F)) :
    val_main_v76 (F := F) x0 x1 x2 x3 x4 x5 x6 x7 x8 x9 x10 x11
      = layerLin (val_main_v51 (F := F) x0 x1 x2 x3 x4 x5 x6 x7 x8) (val_main_v70 (F := F) x0 x1 x2 x3 x4 x5 x6 x7 x8) x9 x10 x11 := rfl

end Cert.Sage

end
-- ==== Proof.Region0.lean ====
/-
  The first launch (the edge stage). For whatever contents the launch finds, the array it leaves behind is the edge
  stage of the four arrays it reads: every block of 6,400 edges is written once, and block t holds rows 6400·t … 6400·t+6399
  of relu (x · We + be) ⊙ g, the matrix product over a block of rows being the same rows of the whole product.
-/
import proofs.«414895_j2697239462581_2_alg».proof.Proof.Gen.KernelIdeal.Frame
import proofs.«414895_j2697239462581_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Sage.Region0

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open scoped BigOperators

/-! ## One block's matrix product, read at an entry -/

/-- Row of the left operand: the output's row. -/
theorem blockDot_lhs_0 (i : S6400x48.Idx) (q : dot_S6400x32_S32x48_S6400x48_1_0_0_1_n_n.contr.Idx) :
    (dot_S6400x32_S32x48_S6400x48_1_0_0_1_n_n.lhsIdx i q 0).val = (i 0).val := by
  unfold DotDims.lhsIdx
  rw [dif_neg (show ¬(0 : Fin S6400x32.rank) ∈ dot_S6400x32_S32x48_S6400x48_1_0_0_1_n_n.lhsBatch by decide), dif_pos (show (0 : Fin S6400x32.rank) ∈ dot_S6400x32_S32x48_S6400x48_1_0_0_1_n_n.lhsNonContracting by decide)]
  rfl
/-- Column of the left operand: the summation index. -/
theorem blockDot_lhs_1 (i : S6400x48.Idx) (q : dot_S6400x32_S32x48_S6400x48_1_0_0_1_n_n.contr.Idx) :
    (dot_S6400x32_S32x48_S6400x48_1_0_0_1_n_n.lhsIdx i q 1).val = (q ⟨0, by decide⟩).val :=
  dot_S6400x32_S32x48_S6400x48_1_0_0_1_n_n.lhsIdx_val_of_single rfl i q
/-- Row of the right operand: the summation index. -/
theorem blockDot_rhs_0 (i : S6400x48.Idx) (q : dot_S6400x32_S32x48_S6400x48_1_0_0_1_n_n.contr.Idx) :
    (dot_S6400x32_S32x48_S6400x48_1_0_0_1_n_n.rhsIdx i q 0).val = (q ⟨0, by decide⟩).val :=
  dot_S6400x32_S32x48_S6400x48_1_0_0_1_n_n.rhsIdx_val_of_single rfl i q
/-- Column of the right operand: the output's column. -/
theorem blockDot_rhs_1 (i : S6400x48.Idx) (q : dot_S6400x32_S32x48_S6400x48_1_0_0_1_n_n.contr.Idx) :
    (dot_S6400x32_S32x48_S6400x48_1_0_0_1_n_n.rhsIdx i q 1).val = (i 1).val := by
  unfold DotDims.rhsIdx
  rw [dif_neg (show ¬(1 : Fin S32x48.rank) ∈ dot_S6400x32_S32x48_S6400x48_1_0_0_1_n_n.rhsBatch by decide), dif_pos (show (1 : Fin S32x48.rank) ∈ dot_S6400x32_S32x48_S6400x48_1_0_0_1_n_n.rhsNonContracting by decide)]
  rfl

/-- Entry (p, q) of a block's product x · W into a zero accumulator is Σ_k x(p, k) · W(k, q). -/
theorem blockDot_apply {φ₁ φ₂ : FTy} (x : FVec Ideal S6400x32 φ₁) (w : FVec Ideal S32x48 φ₂) (p : Fin 6400) (q : Fin 48) :
    matmul dot_S6400x32_S32x48_S6400x48_1_0_0_1_n_n none x w (constant (F := Ideal) S6400x48 .f32 0x00000000#32) (ix2 p q)
      = ∑ k : Fin 32, x (ix2 p k) * w (ix2 k q) := by
  simp only [matmul]
  rw [Ideal.matmul_constant_zero_apply, ← Equiv.sum_comp (ValueIdx.contrEquiv1 dot_S6400x32_S32x48_S6400x48_1_0_0_1_n_n 32 rfl rfl).symm]
  refine Finset.sum_congr rfl fun k _ => ?_
  have hk := ValueIdx.contrEquiv1_symm_val dot_S6400x32_S32x48_S6400x48_1_0_0_1_n_n 32 rfl rfl k
  have el : dot_S6400x32_S32x48_S6400x48_1_0_0_1_n_n.lhsIdx (ix2 p q) ((ValueIdx.contrEquiv1 dot_S6400x32_S32x48_S6400x48_1_0_0_1_n_n 32 rfl rfl).symm k) = ix2 p k := funext fun a => Fin.ext (by
    match a with
    | ⟨0, _⟩ => exact blockDot_lhs_0 _ _
    | ⟨1, _⟩ => exact (blockDot_lhs_1 _ _).trans hk)
  have er : dot_S6400x32_S32x48_S6400x48_1_0_0_1_n_n.rhsIdx (ix2 p q) ((ValueIdx.contrEquiv1 dot_S6400x32_S32x48_S6400x48_1_0_0_1_n_n 32 rfl rfl).symm k) = ix2 k q := funext fun a => Fin.ext (by
    match a with
    | ⟨0, _⟩ => exact (blockDot_rhs_0 _ _).trans hk
    | ⟨1, _⟩ => exact blockDot_rhs_1 _ _)
  rw [el, er]

/-- The bias, laid out as one row and repeated down the block, reads b(q) at (p, q). -/
theorem biasRows_apply (b : Vec Ideal S48 .f32) (p : Fin 6400) (q : Fin 48) :
    broadcastTo S6400x48 (shapeCast S1x48 b shapeCasts_S48_S1x48) broadcasts_S1x48_S6400x48 (ix2 p q) = b (ix1 q) := by
  rw [broadcastTo_1b_ab_apply, shapeCast_a_1a_apply]

/-- What the body stores, at entry (p, q) of its block: max(Σ_k x(p,k)·W(k,q) + b(q), 0) · g(p,q). -/
theorem pay_apply (x : Vec Ideal S6400x32 .f32) (w : Vec Ideal S32x48 .f32) (b : Vec Ideal S48 .f32) (g : Vec Ideal S6400x48 .f32)
    (p : Fin 6400) (q : Fin 48) :
    k0_pay1 (F := Ideal) x w b g (ix2 p q)
      = max ((∑ k : Fin 32, x (ix2 p k) * w (ix2 k q)) + b (ix1 q)) 0 * g (ix2 p q) := by
  unfold k0_pay1
  show max (matmul dot_S6400x32_S32x48_S6400x48_1_0_0_1_n_n none (truncf .bf16 x bitsLt_bf16_f32) (truncf .bf16 w bitsLt_bf16_f32) (constant (F := Ideal) S6400x48 .f32 0x00000000#32) (ix2 p q)
        + broadcastTo S6400x48 (shapeCast S1x48 b shapeCasts_S48_S1x48) broadcasts_S1x48_S6400x48 (ix2 p q)) (Ideal.ofBits .f32 0x00000000#32)
      * shapeCast S6400x48 g shapeCasts_S6400x48_S6400x48 (ix2 p q) = _
  rw [blockDot_apply, biasRows_apply, shapeCast_self, Ideal.ofBits_zero_f32]
  rfl

/-! ## The edge stage, read at an entry -/

/-- Entry (r, q) of the edge stage: g(r,q) · max(Σ_k x(r,k)·W(k,q) + b(q), 0). -/
theorem edgeGate_apply (x : (⟨Cert.ReferenceIdeal.S1600000x32, .f32⟩ : BufTy).Contents (Elt Ideal))
    (g : (⟨Cert.ReferenceIdeal.S1600000x48, .f32⟩ : BufTy).Contents (Elt Ideal))
    (W : (⟨Cert.ReferenceIdeal.S32x48, .f32⟩ : BufTy).Contents (Elt Ideal))
    (b : (⟨Cert.ReferenceIdeal.S48, .f32⟩ : BufTy).Contents (Elt Ideal)) (r : Fin 1600000) (q : Fin 48) :
    edgeGate (F := Ideal) x g W b (ix2 r q)
      = g (ix2 r q) * max ((∑ k : Fin 32, x (ix2 r k) * W (ix2 k q)) + b (ix1 q)) 0 := by
  show g (ix2 r q) * max (Cert.ReferenceIdeal.Read.val_main_v0 (F := Ideal) x W (ix2 r q) + Cert.ReferenceIdeal.Read.val_main_v2 (F := Ideal) b (ix2 r q))
      (Cert.ReferenceIdeal.Read.val_main_call0_v0 (F := Ideal) (ix2 r q)) = _
  rw [Cert.ReferenceIdeal.Read.val_main_v0_apply, Cert.ReferenceIdeal.Read.val_main_v2_apply, Cert.ReferenceIdeal.Read.val_main_v1_apply,
    Cert.ReferenceIdeal.Read.val_main_call0_v0_apply, Cert.ReferenceIdeal.Read.val_main_call0_cst_apply]
  have el : ∀ k : Fin 32, Cert.ReferenceIdeal.Read.lidx_main_v0 (ix2 r q) k = ix2 r k := fun k =>
    funext fun a => Fin.ext (by match a with | ⟨0, _⟩ => rfl | ⟨1, _⟩ => rfl)
  have er : ∀ k : Fin 32, Cert.ReferenceIdeal.Read.ridx_main_v0 (ix2 r q) k = ix2 k q := fun k =>
    funext fun a => Fin.ext (by match a with | ⟨0, _⟩ => rfl | ⟨1, _⟩ => rfl)
  have eb : Cert.ReferenceIdeal.Read.idx_main_v1 (Cert.ReferenceIdeal.Read.idx_main_v2 (ix2 r q)) = ix1 q :=
    funext fun a => Fin.ext (by match a with | ⟨0, _⟩ => rfl)
  simp only [el, er, eb]
  show _ * max _ (Ideal.ofBits .f32 0x00000000#32) = _
  rw [Ideal.ofBits_zero_f32]

/-! ## A block of the launch against the same rows of the edge stage -/

/-- If a block's operands are the rows of the whole arrays that start at row r − p (entry (p, ·) of the block being
    row r of the arrays) and the weights and bias are the whole ones, then what the body stores at (p, q) is entry
    (r, q) of the edge stage: the two products are the same sum, and the two factors commute. -/
theorem block_entry (X : (⟨Cert.ReferenceIdeal.S1600000x32, .f32⟩ : BufTy).Contents (Elt Ideal))
    (G : (⟨Cert.ReferenceIdeal.S1600000x48, .f32⟩ : BufTy).Contents (Elt Ideal))
    (W : (⟨Cert.ReferenceIdeal.S32x48, .f32⟩ : BufTy).Contents (Elt Ideal))
    (B : (⟨Cert.ReferenceIdeal.S48, .f32⟩ : BufTy).Contents (Elt Ideal))
    (x : Vec Ideal S6400x32 .f32) (w : Vec Ideal S32x48 .f32) (b : Vec Ideal S48 .f32) (g : Vec Ideal S6400x48 .f32)
    (p : Fin 6400) (q : Fin 48) (r : Fin 1600000)
    (hx : ∀ k : Fin 32, x (ix2 p k) = X (ix2 r k)) (hw : ∀ k : Fin 32, w (ix2 k q) = W (ix2 k q))
    (hb : b (ix1 q) = B (ix1 q)) (hg : g (ix2 p q) = G (ix2 r q)) :
    k0_pay1 (F := Ideal) x w b g (ix2 p q) = edgeGate (F := Ideal) X G W B (ix2 r q) := by
  rw [pay_apply, edgeGate_apply, hg, hb, mul_comm]
  congr 3
  exact Finset.sum_congr rfl fun k _ => by rw [hx k, hw k]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The launch's index maps over its 250 points: the edge-feature, gathered-row and output blocks are block t along
    the rows, the weights and the bias are the whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- What point t writes back is block t of the edge stage of the arrays the launch finds. -/
theorem flushed_eq (V : (c : Dev nD) → (b : Ref sig .tc) → Buf (Elt Ideal) ((c : Thread nD τ).loc b)) (c : Dev nD) (t : Fin cfg0.N) :
    (dat0 (F := Ideal) V c).flushed 4 t
      = ((cfg0.win 4).blk t).view.read (Elt Ideal) (edgeGate (F := Ideal) (V c main_arg1) (V c main_v0) (V c main_arg4) (V c main_arg5)) := by
  show (cfg0.win 4).cut (grid0.coords t) ((dat0 (F := Ideal) V c).after 4 t) = _
  rw [after0_4]
  unfold out0_4
  rw [View.canon_unit_zero zeros2]
  simp only [View.ld_unit_zero (S := S6400x32) zeros2, View.ld_unit_zero (S := S32x48) zeros2, View.ld_unit_zero (S := S48) zeros1,
    View.ld_unit_zero (S := S6400x48) zeros2]
  obtain ⟨e00, e01, e10, e11, e20, e21, e30, e40, e41⟩ := idx_facts t
  have hN : t.val < 250 := lt_of_lt_of_eq t.isLt N_0
  refine funext fun (j : S6400x48.Idx) => ?_
  obtain ⟨p, q, rfl⟩ : ∃ (p : Fin 6400) (q : Fin 48), j = ix2 p q := ⟨j 0, j 1, eq_ix2 j⟩
  have hp : p.val < 6400 := p.isLt
  have hr : t.val * 6400 + p.val < 1600000 := by omega
  show k0_pay1 (F := Ideal) (iblk0 V c 0 t) (iblk0 V c 2 t) (iblk0 V c 3 t) (iblk0 V c 1 t) (ix2 p q)
      = edgeGate (F := Ideal) (V c main_arg1) (V c main_v0) (V c main_arg4) (V c main_arg5) (((cfg0.win 4).blk t).view.emb (ix2 p q))
  have hi : ((cfg0.win 4).blk t).view.emb (ix2 p q) = ix2 (⟨t.val * 6400 + p.val, hr⟩ : Fin 1600000) q := by
    funext a; apply Fin.ext
    match a with
    | ⟨0, _⟩ => show win0_4.index t (0 : Fin 2) * 6400 + 1 * p.val = t.val * 6400 + p.val; omega
    | ⟨1, _⟩ => show win0_4.index t (1 : Fin 2) * 48 + 1 * q.val = q.val; omega
  rw [hi]
  refine block_entry (V c main_arg1) (V c main_v0) (V c main_arg4) (V c main_arg5) (iblk0 V c 0 t) (iblk0 V c 2 t) (iblk0 V c 3 t) (iblk0 V c 1 t)
    p q ⟨t.val * 6400 + p.val, hr⟩ (fun k => ?_) (fun k => ?_) ?_ ?_
  · show V c main_arg1 (((cfg0.win 0).blk t).view.emb (ix2 p k)) = V c main_arg1 (ix2 (⟨t.val * 6400 + p.val, hr⟩ : Fin 1600000) k)
    refine congrArg (V c main_arg1) (funext fun a => Fin.ext ?_)
    match a with
    | ⟨0, _⟩ => show win0_0.index t (0 : Fin 2) * 6400 + 1 * p.val = t.val * 6400 + p.val; omega
    | ⟨1, _⟩ => show win0_0.index t (1 : Fin 2) * 32 + 1 * k.val = k.val; omega
  · show V c main_arg4 (((cfg0.win 2).blk t).view.emb (ix2 k q)) = V c main_arg4 (ix2 k q)
    refine congrArg (V c main_arg4) (funext fun a => Fin.ext ?_)
    match a with
    | ⟨0, _⟩ => show win0_2.index t (0 : Fin 2) * 32 + 1 * k.val = k.val; omega
    | ⟨1, _⟩ => show win0_2.index t (1 : Fin 2) * 48 + 1 * q.val = q.val; omega
  · show V c main_arg5 (((cfg0.win 3).blk t).view.emb (ix1 q)) = V c main_arg5 (ix1 q)
    refine congrArg (V c main_arg5) (funext fun a => Fin.ext ?_)
    match a with
    | ⟨0, _⟩ => show win0_3.index t (0 : Fin 1) * 48 + 1 * q.val = q.val; omega
  · show V c main_v0 (((cfg0.win 1).blk t).view.emb (ix2 p q)) = V c main_v0 (ix2 (⟨t.val * 6400 + p.val, hr⟩ : Fin 1600000) q)
    refine congrArg (V c main_v0) (funext fun a => Fin.ext ?_)
    match a with
    | ⟨0, _⟩ => show win0_1.index t (0 : Fin 2) * 6400 + 1 * p.val = t.val * 6400 + p.val; omega
    | ⟨1, _⟩ => show win0_1.index t (1 : Fin 2) * 48 + 1 * q.val = q.val; omega

/-- A row is in point t's block exactly when it is one of rows 6400·t … 6400·t + 6399 (and the column in range). -/
theorem mem_blk (t : Fin cfg0.N) (i : S1600000x48.Idx) :
    i ∈ ((cfg0.win 4).blk t).view.set ↔ ∀ a : Fin 2, win0_4.index t a * S6400x48.size a ≤ (i a).val ∧ (i a).val < win0_4.index t a * S6400x48.size a + S6400x48.size a := by
  show i ∈ ((View.whole main_v1).slice (win0_4.rect t)).set ↔ _
  rw [View.set_slice_whole, Rect.mem_set_unit]
  exact Iff.rfl

/-- Every row r is written: by point r / 6400. -/
theorem cover (i : S1600000x48.Idx) : ∃ t : Fin cfg0.N, (cfg0.win 4).flush t = true ∧ i ∈ ((cfg0.win 4).blk t).view.set := by
  have h0 : (i 0).val < 1600000 := (i 0).isLt
  have h1 : (i 1).val < 48 := (i 1).isLt
  obtain ⟨t, ht⟩ : ∃ t : Fin cfg0.N, t.val = (i 0).val / 6400 := ⟨⟨(i 0).val / 6400, lt_of_lt_of_eq (by omega) N_0.symm⟩, rfl⟩
  obtain ⟨-, -, -, -, -, -, -, e40, e41⟩ := idx_facts t
  refine ⟨t, flush0_4 t, ?_⟩
  rw [mem_blk]
  intro a
  match a with
  | ⟨0, _⟩ => show win0_4.index t (0 : Fin 2) * 6400 ≤ (i 0).val ∧ (i 0).val < win0_4.index t (0 : Fin 2) * 6400 + 6400; omega
  | ⟨1, _⟩ => show win0_4.index t (1 : Fin 2) * 48 ≤ (i 1).val ∧ (i 1).val < win0_4.index t (1 : Fin 2) * 48 + 48; omega

/-- The messages array after the first launch is the edge stage of the arrays the launch reads. -/
theorem region0_value (V : (c : Dev nD) → (b : Ref sig .tc) → Buf (Elt Ideal) ((c : Thread nD τ).loc b)) (c : Dev nD) :
    (dat0 (F := Ideal) V c).arrAt 4 cfg0.N
      = edgeGate (F := Ideal) (V c main_arg1) (V c main_v0) (V c main_arg4) (V c main_arg5) :=
  (dat0 (F := Ideal) V c).arrAt_eq_of_cover 4 _ (fun t _ => flushed_eq V c t) cover

end Cert.Sage.Region0

end
-- ==== Proof.Region1.lean ====
/-
  The second launch (the first layer). For whatever contents the launch finds, the array it leaves behind is
  relu (h · Ws + hn · Wn + b) of the five arrays it reads: block t holds rows 5000·t … 5000·t+4999.
-/
import proofs.«414895_j2697239462581_2_alg».proof.Proof.Gen.KernelIdeal.Frame
import proofs.«414895_j2697239462581_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Region1

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-! ## One block's product read at a row and a column -/

/-- The left operand's row coordinate is the output's row. -/
theorem blockDot_lhs_0 (i : S5000x128.Idx) (q : dot_S5000x96_S96x128_S5000x128_1_0_0_1_n_n.contr.Idx) :
    (dot_S5000x96_S96x128_S5000x128_1_0_0_1_n_n.lhsIdx i q 0).val = (i 0).val := by
  unfold DotDims.lhsIdx
  rw [dif_neg (show ¬(0 : Fin S5000x96.rank) ∈ dot_S5000x96_S96x128_S5000x128_1_0_0_1_n_n.lhsBatch by decide), dif_pos (show (0 : Fin S5000x96.rank) ∈ dot_S5000x96_S96x128_S5000x128_1_0_0_1_n_n.lhsNonContracting by decide)]
  rfl
/-- The left operand's column coordinate is the summation index. -/
theorem blockDot_lhs_1 (i : S5000x128.Idx) (q : dot_S5000x96_S96x128_S5000x128_1_0_0_1_n_n.contr.Idx) :
    (dot_S5000x96_S96x128_S5000x128_1_0_0_1_n_n.lhsIdx i q 1).val = (q ⟨0, by decide⟩).val :=
  dot_S5000x96_S96x128_S5000x128_1_0_0_1_n_n.lhsIdx_val_of_single rfl i q
/-- The right operand's row coordinate is the summation index. -/
theorem blockDot_rhs_0 (i : S5000x128.Idx) (q : dot_S5000x96_S96x128_S5000x128_1_0_0_1_n_n.contr.Idx) :
    (dot_S5000x96_S96x128_S5000x128_1_0_0_1_n_n.rhsIdx i q 0).val = (q ⟨0, by decide⟩).val :=
  dot_S5000x96_S96x128_S5000x128_1_0_0_1_n_n.rhsIdx_val_of_single rfl i q
/-- The right operand's column coordinate is the output's column. -/
theorem blockDot_rhs_1 (i : S5000x128.Idx) (q : dot_S5000x96_S96x128_S5000x128_1_0_0_1_n_n.contr.Idx) :
    (dot_S5000x96_S96x128_S5000x128_1_0_0_1_n_n.rhsIdx i q 1).val = (i 1).val := by
  unfold DotDims.rhsIdx
  rw [dif_neg (show ¬(1 : Fin S96x128.rank) ∈ dot_S5000x96_S96x128_S5000x128_1_0_0_1_n_n.rhsBatch by decide), dif_pos (show (1 : Fin S96x128.rank) ∈ dot_S5000x96_S96x128_S5000x128_1_0_0_1_n_n.rhsNonContracting by decide)]
  rfl

/-- A [5000, 96] block times a [96, 128] matrix into a zero accumulator: entry (p, q) is Σ_k x(p, k) · w(k, q). -/
theorem blockDot_apply {φ₁ φ₂ : FTy} (x : FVec Ideal S5000x96 φ₁) (w : FVec Ideal S96x128 φ₂) (p : Fin 5000) (q : Fin 128) :
    matmul dot_S5000x96_S96x128_S5000x128_1_0_0_1_n_n none x w (constant (F := Ideal) S5000x128 .f32 0x00000000#32) (ix2 p q)
      = ∑ k : Fin 96, x (ix2 p k) * w (ix2 k q) := by
  simp only [matmul]
  rw [Ideal.matmul_constant_zero_apply, ← Equiv.sum_comp (ValueIdx.contrEquiv1 dot_S5000x96_S96x128_S5000x128_1_0_0_1_n_n 96 rfl rfl).symm]
  refine Finset.sum_congr rfl fun k _ => ?_
  have hk := ValueIdx.contrEquiv1_symm_val dot_S5000x96_S96x128_S5000x128_1_0_0_1_n_n 96 rfl rfl k
  have el : dot_S5000x96_S96x128_S5000x128_1_0_0_1_n_n.lhsIdx (ix2 p q) ((ValueIdx.contrEquiv1 dot_S5000x96_S96x128_S5000x128_1_0_0_1_n_n 96 rfl rfl).symm k) = ix2 p k := funext fun a => Fin.ext (by
    match a with
    | ⟨0, _⟩ => exact blockDot_lhs_0 _ _
    | ⟨1, _⟩ => exact (blockDot_lhs_1 _ _).trans hk)
  have er : dot_S5000x96_S96x128_S5000x128_1_0_0_1_n_n.rhsIdx (ix2 p q) ((ValueIdx.contrEquiv1 dot_S5000x96_S96x128_S5000x128_1_0_0_1_n_n 96 rfl rfl).symm k) = ix2 k q := funext fun a => Fin.ext (by
    match a with
    | ⟨0, _⟩ => exact (blockDot_rhs_0 _ _).trans hk
    | ⟨1, _⟩ => exact blockDot_rhs_1 _ _)
  rw [el, er]

/-! ## What the body stores, read at a row and a column -/

/-- Entry (p, q) of the stored block: the two products' entries and the bias's q-th entry added, then rectified. -/
theorem stored_apply (x0 : Vec Ideal S5000x96 .f32) (w0 : Vec Ideal S96x128 .f32) (x1 : Vec Ideal S5000x96 .f32) (w1 : Vec Ideal S96x128 .f32)
    (b0 : Vec Ideal S128 .f32) (p : Fin 5000) (q : Fin 128) :
    (k1_pay1 (F := Ideal) x0 w0 x1 w1 b0) (ix2 p q)
      = max ((∑ k : Fin 96, x0 (ix2 p k) * w0 (ix2 k q)) + (∑ k : Fin 96, x1 (ix2 p k) * w1 (ix2 k q)) + b0 (ix1 q)) 0 := by
  unfold k1_pay1
  refine (maximumf_apply _ _ (ix2 p q)).trans (congrArg₂ max ?_ ?_)
  · refine (addf_apply _ _ (ix2 p q)).trans (congrArg₂ (· + ·) ?_ ?_)
    · refine (addf_apply _ _ (ix2 p q)).trans (congrArg₂ (· + ·) ?_ ?_)
      · refine (blockDot_apply _ _ p q).trans (Finset.sum_congr rfl fun k _ => ?_)
        show (shapeCast S5000x96 x0 shapeCasts_S5000x96_S5000x96) (ix2 p k) * w0 (ix2 k q) = _
        rw [shapeCast_self]
      · refine (blockDot_apply _ _ p q).trans (Finset.sum_congr rfl fun k _ => ?_)
        show (shapeCast S5000x96 x1 shapeCasts_S5000x96_S5000x96) (ix2 p k) * w1 (ix2 k q) = _
        rw [shapeCast_self]
    · exact (broadcastTo_1b_ab_apply _ broadcasts_S1x128_S5000x128 p q).trans (shapeCast_a_1a_apply b0 shapeCasts_S128_S1x128 0 q)
  · exact Ideal.ofBits_zero_f32

/-! ## The first layer read at a row and a column -/

/-- A [100000, 96] array times a [96, 128] matrix on the host: entry (r, q) is Σ_k x(r, k) · w(k, q). -/
theorem hostDot_apply (x : FVec Ideal Cert.ReferenceIdeal.S100000x96 .f32) (w : FVec Ideal Cert.ReferenceIdeal.S96x128 .f32)
    (r : Fin 100000) (q : Fin 128) :
    Host.dotGeneral (F := Ideal) Cert.ReferenceIdeal.dot_S100000x96_S96x128_S100000x128_1_0_0_1_n_n none x w (ix2 r q)
      = ∑ k : Fin 96, x (ix2 r k) * w (ix2 k q) := by
  simp only [Host.dotGeneral]
  rw [Ideal.dotGeneral_apply, ← Equiv.sum_comp (ValueIdx.contrEquiv1 Cert.ReferenceIdeal.dot_S100000x96_S96x128_S100000x128_1_0_0_1_n_n 96 rfl rfl).symm]
  refine Finset.sum_congr rfl fun k _ => ?_
  have hk := ValueIdx.contrEquiv1_symm_val Cert.ReferenceIdeal.dot_S100000x96_S96x128_S100000x128_1_0_0_1_n_n 96 rfl rfl k
  have el : Cert.ReferenceIdeal.dot_S100000x96_S96x128_S100000x128_1_0_0_1_n_n.lhsIdx (ix2 r q) ((ValueIdx.contrEquiv1 Cert.ReferenceIdeal.dot_S100000x96_S96x128_S100000x128_1_0_0_1_n_n 96 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x96_S96x128_S100000x128_1_0_0_1_n_n.rhsIdx (ix2 r q) ((ValueIdx.contrEquiv1 Cert.ReferenceIdeal.dot_S100000x96_S96x128_S100000x128_1_0_0_1_n_n 96 rfl rfl).symm k) = ix2 k q := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-- Entry (r, q) of the first layer: the two products' entries and the bias's q-th entry added, then rectified. -/
theorem layerRelu_apply (h hn : (⟨Cert.ReferenceIdeal.S100000x96, .f32⟩ : BufTy).Contents (Elt Ideal)) (Ws Wn : (⟨Cert.ReferenceIdeal.S96x128, .f32⟩ : BufTy).Contents (Elt Ideal))
    (b : (⟨Cert.ReferenceIdeal.S128, .f32⟩ : BufTy).Contents (Elt Ideal)) (r : Fin 100000) (q : Fin 128) :
    layerRelu (F := Ideal) h hn Ws Wn b (ix2 r q)
      = max ((∑ k : Fin 96, h (ix2 r k) * Ws (ix2 k q)) + (∑ k : Fin 96, hn (ix2 r k) * Wn (ix2 k q)) + b (ix1 q)) 0 := by
  unfold layerRelu
  refine (maximumf_apply _ _ (ix2 r q)).trans (congrArg₂ max ?_ ?_)
  · refine (addf_apply _ _ (ix2 r q)).trans (congrArg₂ (· + ·) ?_ ?_)
    · exact (addf_apply _ _ (ix2 r q)).trans (congrArg₂ (· + ·) (hostDot_apply h Ws r q) (hostDot_apply hn Wn r q))
    · refine (broadcastInDim_apply _ _ _ (ix2 r q) (ix2 (0 : Fin 1) q) (fun a => match a with
        | ⟨0, _⟩ => by show 0 = if (1 : Nat) = 1 then 0 else r.val; rw [if_pos rfl]
        | ⟨1, _⟩ => by show q.val = if (128 : Nat) = 1 then 0 else q.val; rw [if_neg (by decide)])).trans ?_
      exact broadcastInDim_apply _ _ b (ix2 (0 : Fin 1) q) (ix1 q) (fun a => match a with
        | ⟨0, _⟩ => by show q.val = if (128 : Nat) = 1 then 0 else q.val; rw [if_neg (by decide)])
  · refine (broadcastInDim_apply _ _ _ (ix2 r q) ix0 (fun a => a.elim0)).trans ?_
    exact Ideal.ofBits_zero_f32

/-! ## From blocks to the array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- Where each window's block sits at point t (decided over the 20 points): the two row operands and the output at
    block row t, column block 0; the two weight matrices and the bias whole, at the origin. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

section AtEntryContents
variable (V : (c : Dev nD) → (b : Ref sig .tc) → Buf (Elt Ideal) ((c : Thread nD τ).loc b))

/-- What point t writes back is block t of the first layer of the five arrays as the launch finds them. -/
theorem flushed_eq (c : Dev nD) (t : Fin cfg1.N) :
    (dat1 (F := Ideal) V c).flushed 5 t
      = ((cfg1.win 5).blk t).view.read (Elt Ideal)
          (layerRelu (F := Ideal) (V c main_v14) (V c main_v27) (V c main_arg6) (V c main_arg7) (V c main_arg8)) := by
  show (cfg1.win 5).cut (grid1.coords t) ((dat1 (F := Ideal) V c).after 5 t) = _
  rw [after1_5]
  unfold out1_5
  rw [View.canon_unit_zero zero_offsets2]
  simp only [View.ld_unit_zero (S := S5000x96) zero_offsets2, View.ld_unit_zero (S := S96x128) zero_offsets2, View.ld_unit_zero (S := S128) zero_offsets1]
  obtain ⟨e00, e01, e10, e11, e20, e21, e30, e31, e40, e50, e51⟩ := block_positions t
  have ht : t.val < 20 := lt_of_lt_of_eq t.isLt (show cfg1.N = 20 from N_1)
  funext j
  have hp : (j 0).val < 5000 := (j 0).isLt
  have hq : (j 1).val < 128 := (j 1).isLt
  -- the index inside the block, and the array index it is written to: row 5000·t + p, column q
  have hblock : (win1 5).xinj (grid1.coords t) j = ix2 (⟨(j 0).val, hp⟩ : Fin 5000) (⟨(j 1).val, hq⟩ : Fin 128) :=
    funext fun a => match a with | ⟨0, _⟩ => rfl | ⟨1, _⟩ => rfl
  have harray : ((cfg1.win 5).blk t).view.emb j
      = ix2 (⟨t.val * 5000 + (j 0).val, by omega⟩ : Fin 100000) (⟨(j 1).val, hq⟩ : Fin 128) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 128 + 1 * (j 1).val = (j 1).val; omega)
  refine (congrArg (k1_pay1 (F := Ideal) (iblk1 V c 0 t) (iblk1 V c 2 t) (iblk1 V c 1 t) (iblk1 V c 3 t) (iblk1 V c 4 t)) hblock).trans ?_
  refine Eq.trans ?_ (congrArg (layerRelu (F := Ideal) (V c main_v14) (V c main_v27) (V c main_arg6) (V c main_arg7) (V c main_arg8)) harray).symm
  refine (stored_apply (iblk1 V c 0 t) (iblk1 V c 2 t) (iblk1 V c 1 t) (iblk1 V c 3 t) (iblk1 V c 4 t) ⟨(j 0).val, hp⟩ ⟨(j 1).val, hq⟩).trans ?_
  refine Eq.trans ?_ (layerRelu_apply (V c main_v14) (V c main_v27) (V c main_arg6) (V c main_arg7) (V c main_arg8) ⟨t.val * 5000 + (j 0).val, by omega⟩ ⟨(j 1).val, hq⟩).symm
  -- each input block read where the output's rectangle says
  have r0 : ∀ k : Fin 96, (iblk1 V c 0 t : Vec Ideal S5000x96 .f32) (ix2 (⟨(j 0).val, hp⟩ : Fin 5000) k)
      = V c main_v14 (ix2 (⟨t.val * 5000 + (j 0).val, by omega⟩ : Fin 100000) k) := fun k => by
    show V c main_v14 (((cfg1.win 0).blk t).view.emb (ix2 (⟨(j 0).val, hp⟩ : Fin 5000) k)) = _
    refine congrArg (V c main_v14) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 96 + 1 * k.val = k.val; omega
  have r1 : ∀ k : Fin 96, (iblk1 V c 1 t : Vec Ideal S5000x96 .f32) (ix2 (⟨(j 0).val, hp⟩ : Fin 5000) k)
      = V c main_v27 (ix2 (⟨t.val * 5000 + (j 0).val, by omega⟩ : Fin 100000) k) := fun k => by
    show V c main_v27 (((cfg1.win 1).blk t).view.emb (ix2 (⟨(j 0).val, hp⟩ : Fin 5000) k)) = _
    refine congrArg (V c main_v27) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 96 + 1 * k.val = k.val; omega
  have r2 : ∀ k : Fin 96, (iblk1 V c 2 t : Vec Ideal S96x128 .f32) (ix2 k (⟨(j 1).val, hq⟩ : Fin 128))
      = V c main_arg6 (ix2 k (⟨(j 1).val, hq⟩ : Fin 128)) := fun k => by
    show V c main_arg6 (((cfg1.win 2).blk t).view.emb (ix2 k (⟨(j 1).val, hq⟩ : Fin 128))) = _
    refine congrArg (V c main_arg6) (funext fun a => Fin.ext ?_)
    match a with
    | ⟨0, _⟩ => show win1_2.index t (0 : Fin 2) * 96 + 1 * k.val = k.val; omega
    | ⟨1, _⟩ => show win1_2.index t (1 : Fin 2) * 128 + 1 * (j 1).val = (j 1).val; omega
  have r3 : ∀ k : Fin 96, (iblk1 V c 3 t : Vec Ideal S96x128 .f32) (ix2 k (⟨(j 1).val, hq⟩ : Fin 128))
      = V c main_arg7 (ix2 k (⟨(j 1).val, hq⟩ : Fin 128)) := fun k => by
    show V c main_arg7 (((cfg1.win 3).blk t).view.emb (ix2 k (⟨(j 1).val, hq⟩ : Fin 128))) = _
    refine congrArg (V c main_arg7) (funext fun a => Fin.ext ?_)
    match a with
    | ⟨0, _⟩ => show win1_3.index t (0 : Fin 2) * 96 + 1 * k.val = k.val; omega
    | ⟨1, _⟩ => show win1_3.index t (1 : Fin 2) * 128 + 1 * (j 1).val = (j 1).val; omega
  have r4 : (iblk1 V c 4 t : Vec Ideal S128 .f32) (ix1 (⟨(j 1).val, hq⟩ : Fin 128))
      = V c main_arg8 (ix1 (⟨(j 1).val, hq⟩ : Fin 128)) := by
    show V c main_arg8 (((cfg1.win 4).blk t).view.emb (ix1 (⟨(j 1).val, hq⟩ : Fin 128))) = _
    refine congrArg (V c main_arg8) (funext fun a => Fin.ext ?_)
    match a with
    | ⟨0, _⟩ => show win1_4.index t (0 : Fin 1) * 128 + 1 * (j 1).val = (j 1).val; omega
  exact congrArg₂ max (congrArg₂ (· + ·) (congrArg₂ (· + ·)
      (Finset.sum_congr rfl fun k _ => congrArg₂ (· * ·) (r0 k) (r2 k))
      (Finset.sum_congr rfl fun k _ => congrArg₂ (· * ·) (r1 k) (r3 k))) r4) rfl

end AtEntryContents

/-- An index of the array is in point t's block iff each coordinate is in the block's range on its axis. -/
theorem mem_block (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- The blocks tile the array: row r lies in the block of point r / 5000, and every point writes its block back. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, e50, e51⟩ := block_positions t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The hidden array after the second launch is the first layer of the arrays the launch reads. -/
theorem region1_value (V : (c : Dev nD) → (b : Ref sig .tc) → Buf (Elt Ideal) ((c : Thread nD τ).loc b)) (c : Dev nD) :
    (dat1 (F := Ideal) V c).arrAt 5 cfg1.N
      = layerRelu (F := Ideal) (V c main_v14) (V c main_v27) (V c main_arg6) (V c main_arg7) (V c main_arg8) := by
  exact (dat1 (F := Ideal) V c).arrAt_eq_of_cover 5
    (layerRelu (F := Ideal) (V c main_v14) (V c main_v27) (V c main_arg6) (V c main_arg7) (V c main_arg8))
    (fun t _ => flushed_eq V c t) covered

end Cert.Sage.Region1

end
-- ==== Proof.Region2.lean ====
/-
  The third launch (the second layer). For whatever contents the launch finds, the array it leaves behind is
  h · Ws + hn · Wn + b of the five arrays it reads: block t holds rows 5000·t … 5000·t+4999.
-/
import proofs.«414895_j2697239462581_2_alg».proof.Proof.Gen.KernelIdeal.Frame
import proofs.«414895_j2697239462581_2_alg».proof.Proof.Spec
import Idealize.ShloMosaic.Lib.Pipeline.Value
import Idealize.ShloMosaic.Lib.ValueIdx
import Idealize.ShloMosaic.PureOps.Ideal.Laws

noncomputable section

namespace Cert.Sage.Region2

/-! ## The second layer read at an index -/

section Layer

open Cert.ReferenceIdeal Cert.ReferenceIdeal.Gen Cert.ReferenceIdeal.Read Idealize.ShloMosaic Idealize.ShloMosaic.TcCoe Idealize.SL.Sem Idealize.ShloMosaic.StableHlo

/-- A 100000×128 array times a 128×64 array, read at (r, q): the sum over k of the left at (r, k) times the right at (k, q). -/
theorem product_apply (y : (⟨S100000x128, .f32⟩ : BufTy).Contents (Elt Ideal)) (W : (⟨S128x64, .f32⟩ : BufTy).Contents (Elt Ideal))
    (i : S100000x64.Idx) :
    Host.dotGeneral (F := Ideal) (φ₁ := .f32) (φ₂ := .f32) dot_S100000x128_S128x64_S100000x64_1_0_0_1_n_n none y W i
      = ∑ k : Fin 128, y (lidx_main_v71 i k) * W (ridx_main_v71 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v71 i k := funext fun a => Fin.ext (by
    match a with
    | ⟨0, _⟩ => exact lhs_main_v71_0 _ _
    | ⟨1, _⟩ => exact (lhs_main_v71_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v71 i k := funext fun a => Fin.ext (by
    match a with
    | ⟨0, _⟩ => exact (rhs_main_v71_0 _ _).trans hk
    | ⟨1, _⟩ => exact rhs_main_v71_1 _ _)
  rw [el, er]

/-- The second layer at (r, q): Σ_k h(r, k)·Ws(k, q) + Σ_k hn(r, k)·Wn(k, q) + b(q). -/
theorem layerLin_apply (h hn : (⟨S100000x128, .f32⟩ : BufTy).Contents (Elt Ideal)) (Ws Wn : (⟨S128x64, .f32⟩ : BufTy).Contents (Elt Ideal))
    (b : (⟨S64, .f32⟩ : BufTy).Contents (Elt Ideal)) (i : S100000x64.Idx) :
    layerLin (F := Ideal) h hn Ws Wn b i
      = (∑ k : Fin 128, h (lidx_main_v71 i k) * Ws (ridx_main_v71 i k))
        + (∑ k : Fin 128, hn (lidx_main_v71 i k) * Wn (ridx_main_v71 i k))
        + b (idx_main_v74 (idx_main_v75 i)) := by
  unfold layerLin
  show Host.dotGeneral (F := Ideal) (φ₁ := .f32) (φ₂ := .f32) dot_S100000x128_S128x64_S100000x64_1_0_0_1_n_n none h Ws i
      + Host.dotGeneral (F := Ideal) (φ₁ := .f32) (φ₂ := .f32) dot_S100000x128_S128x64_S100000x64_1_0_0_1_n_n none hn Wn i
      + val_main_v75 (F := Ideal) b i = _
  rw [product_apply, product_apply, val_main_v75_apply, val_main_v74_apply]

end Layer

open Cert.KernelIdeal Cert.KernelIdeal.Gen Idealize.ShloMosaic Idealize.ShloMosaic.TcCoe Idealize.SL.Sem Idealize.ShloMosaic.StableHlo
open Idealize.ShloMosaic.Pipeline (Dat)

/-! ## What the body stores, read at an index -/

theorem blockDot_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blockDot_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem blockDot_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem blockDot_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row (j 0), column k of a 5000×128 block. -/
abbrev rowAt (j : S5000x64.Idx) (k : Fin 128) : S5000x128.Idx := fun a => match a with
  | ⟨0, _⟩ => ⟨(j 0).val, (j 0).isLt⟩
  | ⟨1, _⟩ => ⟨k.val, k.isLt⟩
/-- Row k, column (j 1) of a 128×64 matrix. -/
abbrev colAt (j : S5000x64.Idx) (k : Fin 128) : S128x64.Idx := fun a => match a with
  | ⟨0, _⟩ => ⟨k.val, k.isLt⟩
  | ⟨1, _⟩ => ⟨(j 1).val, (j 1).isLt⟩
/-- Entry (j 1) of a 64-vector. -/
abbrev biasAt (j : S5000x64.Idx) : S64.Idx := fun a => match a with
  | ⟨0, _⟩ => ⟨(j 1).val, (j 1).isLt⟩
/-- Entry (0, j 1) of a 1×64 row. -/
abbrev rowVecAt (j : S5000x64.Idx) : S1x64.Idx := fun a => match a with
  | ⟨0, _⟩ => ⟨0, Nat.one_pos⟩
  | ⟨1, _⟩ => ⟨(j 1).val, (j 1).isLt⟩

/-- A 5000×128 block times a 128×64 matrix into a zero accumulator, read at (p, q): Σ_k a(p, k)·w(k, q). -/
theorem blockProduct_apply (a : FVec Ideal S5000x128 .bf16) (w : FVec Ideal S128x64 .bf16) (j : S5000x64.Idx) :
    matmul dot_S5000x128_S128x64_S5000x64_1_0_0_1_n_n none a w (constant (F := Ideal) S5000x64 .f32 0x00000000#32) j
      = ∑ k : Fin 128, a (rowAt j k) * w (colAt j k) := by
  show FloatOps.matmul dot_S5000x128_S128x64_S5000x64_1_0_0_1_n_n none a w (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowAt j k := funext fun a => Fin.ext (by
    match a with
    | ⟨0, _⟩ => exact blockDot_lhs_0 _ _
    | ⟨1, _⟩ => exact (blockDot_lhs_1 _ _).trans hk)
  have er : dot_S5000x128_S128x64_S5000x64_1_0_0_1_n_n.rhsIdx j ((ValueIdx.contrEquiv1 dot_S5000x128_S128x64_S5000x64_1_0_0_1_n_n 128 rfl rfl).symm k) = colAt j k := funext fun a => Fin.ext (by
    match a with
    | ⟨0, _⟩ => exact (blockDot_rhs_0 _ _).trans hk
    | ⟨1, _⟩ => exact blockDot_rhs_1 _ _)
  rw [el, er]

/-- The 64-vector as one row, repeated down 5000 rows, read at (p, q): its entry q. -/
theorem biasRows_apply (b : Vec Ideal S64 .f32) (j : S5000x64.Idx) :
    broadcastTo S5000x64 (shapeCast S1x64 b shapeCasts_S64_S1x64) broadcasts_S1x64_S5000x64 j = b (biasAt j) := by
  refine (broadcastTo_apply _ broadcasts_S1x64_S5000x64 j (rowVecAt j) (fun a => ?_)).trans ?_
  · match a with
    | ⟨0, _⟩ => show 0 = if (1 : Nat) = 1 then 0 else _; rw [if_pos rfl]
    | ⟨1, _⟩ => show (j 1).val = if (64 : Nat) = 1 then 0 else _; rw [if_neg (by decide)]; rfl
  · refine shapeCast_apply b shapeCasts_S64_S1x64 (rowVecAt j) (biasAt j) ?_
    rw [Shape.rowMajor_val_two, Shape.rowMajor_val_one]
    show (j 1).val = 0 * 64 + (j 1).val
    omega

/-- What the body stores, at (p, q): Σ_k x0(p, k)·w0(k, q) + Σ_k x1(p, k)·w1(k, q) + b(q). -/
theorem stored_apply (x0 x1 : Vec Ideal S5000x128 .f32) (w0 w1 : Vec Ideal S128x64 .f32) (b : Vec Ideal S64 .f32) (j : S5000x64.Idx) :
    (k2_pay1 (F := Ideal) x0 w0 x1 w1 b) j
      = (∑ k : Fin 128, x0 (rowAt j k) * w0 (colAt j k)) + (∑ k : Fin 128, x1 (rowAt j k) * w1 (colAt j k)) + b (biasAt j) := by
  unfold k2_pay1
  have e0 : shapeCast S5000x128 x0 shapeCasts_S5000x128_S5000x128 = x0 := shapeCast_self _ _
  have e1 : shapeCast S5000x128 x1 shapeCasts_S5000x128_S5000x128 = x1 := shapeCast_self _ _
  refine (congrArg₂ (· + ·) (congrArg₂ (· + ·) (blockProduct_apply _ _ j) (blockProduct_apply _ _ j)) (biasRows_apply b j)).trans ?_
  rw [e0, e1]
  rfl

/-! ## Blocks of the arrays -/

theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at point t: the two row operands and the output at block row t, the two weight
    matrices and the bias at the origin. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

section Blocks

variable (V : (c : Dev nD) → (b : Ref sig .tc) → Buf (Elt Ideal) ((c : Thread nD τ).loc b))

/-- Block t of the first row operand is rows 5000·t … 5000·t + 4999 of its array. -/
theorem selfRows_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v28 : S100000x128.Idx → Elt Ideal .f32) k := by
  obtain ⟨e0, e1, -⟩ := blockIndex t
  unfold iblk2
  rw [View.read_apply]
  show V c main_v28 _ = V c main_v28 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Block t of the second row operand is rows 5000·t … 5000·t + 4999 of its array. -/
theorem nbrRows_apply (c : Dev nD) (t : Fin cfg2.N) (x : S5000x128.Idx) (k : S100000x128.Idx)
    (hk0 : (k 0).val = 5000 * t.val + (x 0).val) (hk1 : (k 1).val = (x 1).val) :
    (iblk2 V c 1 t : Vec Ideal S5000x128 .f32) x = (V c main_v41 : S100000x128.Idx → Elt Ideal .f32) k := by
  obtain ⟨-, -, e0, e1, -⟩ := blockIndex t
  unfold iblk2
  rw [View.read_apply]
  show V c main_v41 _ = V c main_v41 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The first weight matrix's block is the whole matrix at every point. -/
theorem selfWeights_apply (c : Dev nD) (t : Fin cfg2.N) (x k : S128x64.Idx)
    (hk0 : (k 0).val = (x 0).val) (hk1 : (k 1).val = (x 1).val) :
    (iblk2 V c 2 t : Vec Ideal S128x64 .f32) x = (V c main_arg9 : S128x64.Idx → Elt Ideal .f32) k := by
  obtain ⟨-, -, -, -, e0, e1, -⟩ := blockIndex t
  unfold iblk2
  rw [View.read_apply]
  show V c main_arg9 _ = V c main_arg9 _
  congr 1
  funext a
  apply Fin.ext
  match a with
  | ⟨0, _⟩ => show win2_2.index t 0 * 128 + 1 * (x 0).val = (k 0).val; rw [e0, hk0]; omega
  | ⟨1, _⟩ => show win2_2.index t 1 * 64 + 1 * (x 1).val = (k 1).val; rw [e1, hk1]; omega

/-- The second weight matrix's block is the whole matrix at every point. -/
theorem nbrWeights_apply (c : Dev nD) (t : Fin cfg2.N) (x k : S128x64.Idx)
    (hk0 : (k 0).val = (x 0).val) (hk1 : (k 1).val = (x 1).val) :
    (iblk2 V c 3 t : Vec Ideal S128x64 .f32) x = (V c main_arg10 : S128x64.Idx → Elt Ideal .f32) k := by
  obtain ⟨-, -, -, -, -, -, e0, e1, -⟩ := blockIndex t
  unfold iblk2
  rw [View.read_apply]
  show V c main_arg10 _ = V c main_arg10 _
  congr 1
  funext a
  apply Fin.ext
  match a with
  | ⟨0, _⟩ => show win2_3.index t 0 * 128 + 1 * (x 0).val = (k 0).val; rw [e0, hk0]; omega
  | ⟨1, _⟩ => show win2_3.index t 1 * 64 + 1 * (x 1).val = (k 1).val; rw [e1, hk1]; omega

/-- The bias's block is the whole vector at every point. -/
theorem bias_apply (c : Dev nD) (t : Fin cfg2.N) (x k : S64.Idx) (hk0 : (k 0).val = (x 0).val) :
    (iblk2 V c 4 t : Vec Ideal S64 .f32) x = (V c main_arg11 : S64.Idx → Elt Ideal .f32) k := by
  obtain ⟨-, -, -, -, -, -, -, -, e0, -⟩ := blockIndex t
  unfold iblk2
  rw [View.read_apply]
  show V c main_arg11 _ = V c main_arg11 _
  congr 1
  funext a
  apply Fin.ext
  match a with
  | ⟨0, _⟩ => show win2_4.index t 0 * 64 + 1 * (x 0).val = (k 0).val; rw [e0, hk0]; omega

/-- What point t writes back is block t of the second layer of the arrays the launch reads. -/
theorem flushed_eq (c : Dev nD) (t : Fin cfg2.N) :
    (dat2 V c).flushed 5 t = ((cfg2.win 5).blk t).view.read (Elt Ideal)
      (layerLin (F := Ideal) (V c main_v28) (V c main_v41) (V c main_arg9) (V c main_arg10) (V c main_arg11)) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x64) zeros2, View.ld_unit_zero (S := S64) zeros1]
  funext j
  show k2_pay1 (F := Ideal) (iblk2 V c 0 t) (iblk2 V c 2 t) (iblk2 V c 1 t) (iblk2 V c 3 t) (iblk2 V c 4 t) j
      = layerLin (F := Ideal) (V c main_v28) (V c main_v41) (V c main_arg9) (V c main_arg10) (V c main_arg11)
          (((cfg2.win 5).blk t).view.emb j)
  obtain ⟨-, -, -, -, -, -, -, -, -, e0, e1⟩ := blockIndex t
  have hr0 : ((((cfg2.win 5).blk t).view.emb j) 0).val = 5000 * t.val + (j 0).val := by
    show win2_5.index t 0 * 5000 + 1 * (j 0).val = _
    rw [e0]; omega
  have hr1 : ((((cfg2.win 5).blk t).view.emb j) 1).val = (j 1).val := by
    show win2_5.index t 1 * 64 + 1 * (j 1).val = _
    rw [e1]; omega
  refine (stored_apply (iblk2 V c 0 t) (iblk2 V c 1 t) (iblk2 V c 2 t) (iblk2 V c 3 t) (iblk2 V c 4 t) j).trans ?_
  refine Eq.trans ?_ (layerLin_apply (V c main_v28) (V c main_v41) (V c main_arg9) (V c main_arg10) (V c main_arg11)
    (((cfg2.win 5).blk t).view.emb j)).symm
  refine congrArg₂ (· + ·) (congrArg₂ (· + ·) (Finset.sum_congr rfl fun k _ => ?_) (Finset.sum_congr rfl fun k _ => ?_)) ?_
  · exact congrArg₂ (· * ·)
      (selfRows_apply V c t (rowAt j k) (Cert.ReferenceIdeal.Read.lidx_main_v71 (((cfg2.win 5).blk t).view.emb j) k) hr0 rfl)
      (selfWeights_apply V c t (colAt j k) (Cert.ReferenceIdeal.Read.ridx_main_v71 (((cfg2.win 5).blk t).view.emb j) k) rfl hr1)
  · exact congrArg₂ (· * ·)
      (nbrRows_apply V c t (rowAt j k) (Cert.ReferenceIdeal.Read.lidx_main_v71 (((cfg2.win 5).blk t).view.emb j) k) hr0 rfl)
      (nbrWeights_apply V c t (colAt j k) (Cert.ReferenceIdeal.Read.ridx_main_v71 (((cfg2.win 5).blk t).view.emb j) k) rfl hr1)
  · exact bias_apply V c t (biasAt j)
      (Cert.ReferenceIdeal.Read.idx_main_v74 (Cert.ReferenceIdeal.Read.idx_main_v75 (((cfg2.win 5).blk t).view.emb j))) hr1

end Blocks

/-! ## The blocks tile the array -/

/-- A row-and-column index is in point t's output block iff each coordinate is in the block's range. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v42).slice (win2_5.rect t)).set ↔ _
  rw [View.set_slice_whole, Rect.mem_set_unit]
  exact Iff.rfl

/-- Row r is in the block of point r / 5000. -/
theorem covered (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, -, e0, e1⟩ := blockIndex ⟨(i 0).val / 5000, ht⟩
  refine ⟨⟨(i 0).val / 5000, ht⟩, flush2_5 _, ?_⟩
  rw [mem_block]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]
    omega

/-- The result array after the third launch is the second layer of the arrays the launch reads. -/
theorem region2_value (V : (c : Dev nD) → (b : Ref sig .tc) → Buf (Elt Ideal) ((c : Thread nD τ).loc b)) (c : Dev nD) :
    (dat2 (F := Ideal) V c).arrAt 5 cfg2.N
      = layerLin (F := Ideal) (V c main_v28) (V c main_v41) (V c main_arg9) (V c main_arg10) (V c main_arg11) := by
  exact (dat2 (F := Ideal) V c).arrAt_eq_of_cover 5 _ (fun t _ => flushed_eq V c t) covered

end Cert.Sage.Region2

end
-- ==== Proof.Fold.lean ====
/-
  The buffer contents at the boundaries of the kernel program's nine segments, read at the buffers the next stage uses.
  An argument array is written by no stretch and is no launch's output, so it holds its launch contents at every boundary.
  Each stretch's result is its named function of the previous boundary (the stretch module), each launch's output array the
  dense stage of the arrays the launch finds (the three region modules). Composed: the result buffer at the last boundary
  is the network of the argument arrays, with the three masked gathers still in it.
-/
import proofs.«414895_j2697239462581_2_alg».proof.Proof.Gen.KernelIdeal.Frame
import proofs.«414895_j2697239462581_2_alg».proof.Proof.Stretch
import proofs.«414895_j2697239462581_2_alg».proof.Proof.Region0
import proofs.«414895_j2697239462581_2_alg».proof.Proof.Region1
import proofs.«414895_j2697239462581_2_alg».proof.Proof.Region2

noncomputable section

namespace Cert.Sage

open Cert.KernelIdeal Cert.KernelIdeal.Gen Idealize.ShloMosaic Idealize.ShloMosaic.TcCoe Idealize.SL.Sem Idealize.ShloMosaic.StableHlo

/-- No operation of a stretch writes the reference: the stretch's operations one by one, each result buffer another reference. -/
macro "not_written " ops:ident : tactic => `(tactic| exact List.forall_iff_forall_mem.mp (by
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- A reference the first stretch does not write. -/
structure Upto1 (b : Ref sig .tc) : Prop where
  h0 : ∀ op ∈ (hostOps0 : List (HloOp τ sig (Elt Ideal))), Proc.devRef .tc b ∉ op.writes

/-- … that is also none of the first launch's arrays and is written by none of the three stretches before the second launch. -/
structure Upto5 (b : Ref sig .tc) : Prop extends Upto1 b where
  r0 : ∀ w, Pipeline.arrRef spec0 w ≠ b
  h1 : ∀ op ∈ (hostOps1 : List (HloOp τ sig (Elt Ideal))), Proc.devRef .tc b ∉ op.writes
  h1_1 : ∀ op ∈ (hostOps1_1 : List (HloOp τ sig (Elt Ideal))), Proc.devRef .tc b ∉ op.writes
  h1_2 : ∀ op ∈ (hostOps1_2 : List (HloOp τ sig (Elt Ideal))), Proc.devRef .tc b ∉ op.writes

/-- … and is none of the second launch's arrays and is written by neither stretch before the third launch. -/
structure Upto8 (b : Ref sig .tc) : Prop extends Upto5 b where
  r1 : ∀ w, Pipeline.arrRef spec1 w ≠ b
  h2 : ∀ op ∈ (hostOps2 : List (HloOp τ sig (Elt Ideal))), Proc.devRef .tc b ∉ op.writes
  h2_1 : ∀ op ∈ (hostOps2_1 : List (HloOp τ sig (Elt Ideal))), Proc.devRef .tc b ∉ op.writes

section Kept
variable {b : Ref sig .tc}

theorem W1_kept (hb : Upto1 b) : W1 m ρ c (Proc.devRef .tc b) = m ((c : Thread nD τ).loc b) :=
  StableHlo.after_of_forall_not_mem _ _ hb.h0
theorem W2_kept (hb : Upto5 b) : W2 m ρ c (Proc.devRef .tc b) = m ((c : Thread nD τ).loc b) :=
  (W2_of_ne m ρ c b hb.r0).trans (W1_kept m ρ c hb.toUpto1)
theorem W3_kept (hb : Upto5 b) : W3 m ρ c (Proc.devRef .tc b) = m ((c : Thread nD τ).loc b) :=
  (StableHlo.after_of_forall_not_mem _ _ hb.h1).trans (W2_kept m ρ c hb)
theorem W4_kept (hb : Upto5 b) : W4 m ρ c (Proc.devRef .tc b) = m ((c : Thread nD τ).loc b) :=
  (StableHlo.after_of_forall_not_mem _ _ hb.h1_1).trans (W3_kept m ρ c hb)
theorem W5_kept (hb : Upto5 b) : W5 m ρ c (Proc.devRef .tc b) = m ((c : Thread nD τ).loc b) :=
  (StableHlo.after_of_forall_not_mem _ _ hb.h1_2).trans (W4_kept m ρ c hb)
theorem W6_kept (hb : Upto8 b) : W6 m ρ c (Proc.devRef .tc b) = m ((c : Thread nD τ).loc b) :=
  (W6_of_ne m ρ c b hb.r1).trans (W5_kept m ρ c hb.toUpto5)
theorem W7_kept (hb : Upto8 b) : W7 m ρ c (Proc.devRef .tc b) = m ((c : Thread nD τ).loc b) :=
  (StableHlo.after_of_forall_not_mem _ _ hb.h2).trans (W6_kept m ρ c hb)
theorem W8_kept (hb : Upto8 b) : W8 m ρ c (Proc.devRef .tc b) = m ((c : Thread nD τ).loc b) :=
  (StableHlo.after_of_forall_not_mem _ _ hb.h2_1).trans (W7_kept m ρ c hb)

end Kept

theorem untouched_arg1 : Upto1 main_arg1 := ⟨by not_written hostOps0⟩
theorem untouched_arg4 : Upto1 main_arg4 := ⟨by not_written hostOps0⟩
theorem untouched_arg5 : Upto1 main_arg5 := ⟨by not_written hostOps0⟩
theorem untouched_arg6 : Upto5 main_arg6 :=
  ⟨⟨by not_written hostOps0⟩, by decide, by not_written hostOps1, by not_written hostOps1_1, by not_written hostOps1_2⟩
theorem untouched_arg7 : Upto5 main_arg7 :=
  ⟨⟨by not_written hostOps0⟩, by decide, by not_written hostOps1, by not_written hostOps1_1, by not_written hostOps1_2⟩
theorem untouched_arg8 : Upto5 main_arg8 :=
  ⟨⟨by not_written hostOps0⟩, by decide, by not_written hostOps1, by not_written hostOps1_1, by not_written hostOps1_2⟩
theorem untouched_arg0 : Upto8 main_arg0 :=
  ⟨⟨⟨by not_written hostOps0⟩, by decide, by not_written hostOps1, by not_written hostOps1_1, by not_written hostOps1_2⟩, by decide,
   by not_written hostOps2, by not_written hostOps2_1⟩
theorem untouched_arg2 : Upto8 main_arg2 :=
  ⟨⟨⟨by not_written hostOps0⟩, by decide, by not_written hostOps1, by not_written hostOps1_1, by not_written hostOps1_2⟩, by decide,
   by not_written hostOps2, by not_written hostOps2_1⟩
theorem untouched_arg3 : Upto8 main_arg3 :=
  ⟨⟨⟨by not_written hostOps0⟩, by decide, by not_written hostOps1, by not_written hostOps1_1, by not_written hostOps1_2⟩, by decide,
   by not_written hostOps2, by not_written hostOps2_1⟩
theorem untouched_arg9 : Upto8 main_arg9 :=
  ⟨⟨⟨by not_written hostOps0⟩, by decide, by not_written hostOps1, by not_written hostOps1_1, by not_written hostOps1_2⟩, by decide,
   by not_written hostOps2, by not_written hostOps2_1⟩
theorem untouched_arg10 : Upto8 main_arg10 :=
  ⟨⟨⟨by not_written hostOps0⟩, by decide, by not_written hostOps1, by not_written hostOps1_1, by not_written hostOps1_2⟩, by decide,
   by not_written hostOps2, by not_written hostOps2_1⟩
theorem untouched_arg11 : Upto8 main_arg11 :=
  ⟨⟨⟨by not_written hostOps0⟩, by decide, by not_written hostOps1, by not_written hostOps1_1, by not_written hostOps1_2⟩, by decide,
   by not_written hostOps2, by not_written hostOps2_1⟩

/-- Entering the first launch: the gathered source rows. -/
theorem W1_v0 : W1 m ρ c (Proc.devRef .tc main_v0) = take48 (F := Ideal) (m ((c : Thread nD τ).loc main_arg0)) (m ((c : Thread nD τ).loc main_arg2)) :=
  stretch0_v0 (F := Ideal) (W0 m ρ c)

/-- Leaving the first launch: the messages. -/
theorem W2_v1 : W2 m ρ c (Proc.devRef .tc main_v1)
    = edgeGate (F := Ideal) (m ((c : Thread nD τ).loc main_arg1)) (take48 (F := Ideal) (m ((c : Thread nD τ).loc main_arg0)) (m ((c : Thread nD τ).loc main_arg2))) (m ((c : Thread nD τ).loc main_arg4)) (m ((c : Thread nD τ).loc main_arg5)) := by
  refine (W2_arr m ρ c 4).trans ((Region0.region0_value (V1 m ρ) c).trans ?_)
  show edgeGate (F := Ideal) (W1 m ρ c (Proc.devRef .tc main_arg1)) (W1 m ρ c (Proc.devRef .tc main_v0))
    (W1 m ρ c (Proc.devRef .tc main_arg4)) (W1 m ρ c (Proc.devRef .tc main_arg5)) = _
  rw [W1_v0 m ρ c, W1_kept m ρ c untouched_arg1, W1_kept m ρ c untouched_arg4, W1_kept m ρ c untouched_arg5]

/-- The messages array at the first launch's exit, named. -/
abbrev msgs : (⟨S1600000x48, .f32⟩ : BufTy).Contents (Elt Ideal) := W2 m ρ c (Proc.devRef .tc main_v1)

/-- After the first neighbour mean: node features beside the mean of their incoming messages. -/
theorem W3_v14 : W3 m ρ c (Proc.devRef .tc main_v14)
    = concatH (F := Ideal) (m ((c : Thread nD τ).loc main_arg0)) (segMean48 (F := Ideal) (msgs m ρ c) (m ((c : Thread nD τ).loc main_arg3))) := by
  refine (stretch1_v14 (F := Ideal) (W2 m ρ c)).trans ?_
  rw [W2_kept m ρ c untouched_arg0.toUpto5, W2_kept m ρ c untouched_arg3.toUpto5]

/-- The concatenated features, named. -/
abbrev feats : (⟨S100000x96, .f32⟩ : BufTy).Contents (Elt Ideal) := W3 m ρ c (Proc.devRef .tc main_v14)

theorem W5_v14 : W5 m ρ c (Proc.devRef .tc main_v14) = feats m ρ c :=
  (stretch1_2_keep (F := Ideal) (W4 m ρ c)).trans (stretch1_1_keep (F := Ideal) (W3 m ρ c))

/-- Entering the second launch: the neighbour means of the gathered concatenated features. -/
theorem W5_v27 : W5 m ρ c (Proc.devRef .tc main_v27)
    = segMean96 (F := Ideal) (take96 (F := Ideal) (feats m ρ c) (m ((c : Thread nD τ).loc main_arg2))) (m ((c : Thread nD τ).loc main_arg3)) := by
  refine (stretch1_2_v27 (F := Ideal) (W4 m ρ c)).trans ?_
  rw [W4_kept m ρ c untouched_arg3.toUpto5]
  refine congrArg (fun z => segMean96 (F := Ideal) z (m ((c : Thread nD τ).loc main_arg3))) ?_
  refine (stretch1_1_v15 (F := Ideal) (W3 m ρ c)).trans ?_
  rw [W3_kept m ρ c untouched_arg2.toUpto5]

/-- Leaving the second launch: the hidden array. -/
theorem W6_v28 : W6 m ρ c (Proc.devRef .tc main_v28)
    = layerRelu (F := Ideal) (feats m ρ c) (segMean96 (F := Ideal) (take96 (F := Ideal) (feats m ρ c) (m ((c : Thread nD τ).loc main_arg2))) (m ((c : Thread nD τ).loc main_arg3)))
        (m ((c : Thread nD τ).loc main_arg6)) (m ((c : Thread nD τ).loc main_arg7)) (m ((c : Thread nD τ).loc main_arg8)) := by
  refine (W6_arr m ρ c 5).trans ((Region1.region1_value (V5 m ρ) c).trans ?_)
  show layerRelu (F := Ideal) (W5 m ρ c (Proc.devRef .tc main_v14)) (W5 m ρ c (Proc.devRef .tc main_v27))
    (W5 m ρ c (Proc.devRef .tc main_arg6)) (W5 m ρ c (Proc.devRef .tc main_arg7)) (W5 m ρ c (Proc.devRef .tc main_arg8)) = _
  rw [W5_v14 m ρ c, W5_v27 m ρ c, W5_kept m ρ c untouched_arg6, W5_kept m ρ c untouched_arg7, W5_kept m ρ c untouched_arg8]

/-- The hidden array, named. -/
abbrev hidden : (⟨S100000x128, .f32⟩ : BufTy).Contents (Elt Ideal) := W6 m ρ c (Proc.devRef .tc main_v28)

theorem W8_v28 : W8 m ρ c (Proc.devRef .tc main_v28) = hidden m ρ c :=
  (stretch2_1_keep (F := Ideal) (W7 m ρ c)).trans (stretch2_keep (F := Ideal) (W6 m ρ c))

/-- Entering the third launch: the neighbour means of the gathered hidden rows. -/
theorem W8_v41 : W8 m ρ c (Proc.devRef .tc main_v41)
    = segMean128 (F := Ideal) (take128 (F := Ideal) (hidden m ρ c) (m ((c : Thread nD τ).loc main_arg2))) (m ((c : Thread nD τ).loc main_arg3)) := by
  refine (stretch2_1_v41 (F := Ideal) (W7 m ρ c)).trans ?_
  rw [W7_kept m ρ c untouched_arg3]
  refine congrArg (fun z => segMean128 (F := Ideal) z (m ((c : Thread nD τ).loc main_arg3))) ?_
  refine (stretch2_v29 (F := Ideal) (W6 m ρ c)).trans ?_
  rw [W6_kept m ρ c untouched_arg2]

/-- Leaving the third launch: the result. -/
theorem W9_v42 : W9 m ρ c (Proc.devRef .tc main_v42)
    = layerLin (F := Ideal) (hidden m ρ c) (segMean128 (F := Ideal) (take128 (F := Ideal) (hidden m ρ c) (m ((c : Thread nD τ).loc main_arg2))) (m ((c : Thread nD τ).loc main_arg3)))
        (m ((c : Thread nD τ).loc main_arg9)) (m ((c : Thread nD τ).loc main_arg10)) (m ((c : Thread nD τ).loc main_arg11)) := by
  refine (W9_arr m ρ c 5).trans ((Region2.region2_value (V8 m ρ) c).trans ?_)
  show layerLin (F := Ideal) (W8 m ρ c (Proc.devRef .tc main_v28)) (W8 m ρ c (Proc.devRef .tc main_v41))
    (W8 m ρ c (Proc.devRef .tc main_arg9)) (W8 m ρ c (Proc.devRef .tc main_arg10)) (W8 m ρ c (Proc.devRef .tc main_arg11)) = _
  rw [W8_v28 m ρ c, W8_v41 m ρ c, W8_kept m ρ c untouched_arg9, W8_kept m ρ c untouched_arg10, W8_kept m ρ c untouched_arg11]

end Cert.Sage

end
-- ==== Proof.Bridge.lean ====
/-
  The reference's staged values, written with the kernel program's host functions. The two printed programs name their
  shapes and dimension records separately, with the same contents; the reference's gather of wrapped indices, its three
  neighbour means and its concatenation are, operation for operation, the functions named for the kernel program's
  stretches, so each equation below holds by unfolding.
-/
import proofs.«414895_j2697239462581_2_alg».proof.Proof.Spec
import proofs.«414895_j2697239462581_2_alg».proof.Proof.HostGlue

noncomputable section

namespace Cert.Sage

open Idealize.ShloMosaic Idealize.ShloMosaic.TcCoe Idealize.SL.Sem Idealize.ShloMosaic.StableHlo
open Cert.ReferenceIdeal.Read

variable {F : FTy → Type} [FloatOps F]

/-- The reference's source rows: the plain gather at the wrapped indices. -/
theorem ref_rows (x0 : (⟨Cert.ReferenceIdeal.S100000x48, .f32⟩ : BufTy).Contents (Elt F)) (x2 : (⟨Cert.ReferenceIdeal.S1600000, .i32⟩ : BufTy).Contents (Elt F)) :
    val_main_v11 (F := F) x0 x2
      = Host.gather Cert.KernelIdeal.gather_S100000x48_S1600000x1_S1600000x48_1_0_n_n_0_1_148 x0 (wrapCol (F := F) x2) := rfl

/-- The reference's messages: the edge stage of the gathered rows. -/
theorem ref_msgs (x0 : (⟨Cert.ReferenceIdeal.S100000x48, .f32⟩ : BufTy).Contents (Elt F)) (x1 : (⟨Cert.ReferenceIdeal.S1600000x32, .f32⟩ : BufTy).Contents (Elt F)) (x2 : (⟨Cert.ReferenceIdeal.S1600000, .i32⟩ : BufTy).Contents (Elt F))
    (x4 : (⟨Cert.ReferenceIdeal.S32x48, .f32⟩ : BufTy).Contents (Elt F)) (x5 : (⟨Cert.ReferenceIdeal.S48, .f32⟩ : BufTy).Contents (Elt F)) :
    val_main_v12 (F := F) x0 x1 x2 x4 x5
      = edgeGate (F := F) x1 (Host.gather Cert.KernelIdeal.gather_S100000x48_S1600000x1_S1600000x48_1_0_n_n_0_1_148 x0 (wrapCol (F := F) x2)) x4 x5 := rfl

/-- The reference's concatenated features. -/
theorem ref_feats (x0 : (⟨Cert.ReferenceIdeal.S100000x48, .f32⟩ : BufTy).Contents (Elt F)) (x1 : (⟨Cert.ReferenceIdeal.S1600000x32, .f32⟩ : BufTy).Contents (Elt F)) (x2 x3 : (⟨Cert.ReferenceIdeal.S1600000, .i32⟩ : BufTy).Contents (Elt F)) (x4 : (⟨Cert.ReferenceIdeal.S32x48, .f32⟩ : BufTy).Contents (Elt F)) (x5 : (⟨Cert.ReferenceIdeal.S48, .f32⟩ : BufTy).Contents (Elt F)) :
    val_main_v25 (F := F) x0 x1 x2 x3 x4 x5
      = concatH (F := F) x0 (segMean48 (F := F) (val_main_v12 (F := F) x0 x1 x2 x4 x5) x3) := rfl

/-- The reference's first neighbour means of the concatenated features. -/
theorem ref_nb1 (x0 : (⟨Cert.ReferenceIdeal.S100000x48, .f32⟩ : BufTy).Contents (Elt F)) (x1 : (⟨Cert.ReferenceIdeal.S1600000x32, .f32⟩ : BufTy).Contents (Elt F)) (x2 x3 : (⟨Cert.ReferenceIdeal.S1600000, .i32⟩ : BufTy).Contents (Elt F)) (x4 : (⟨Cert.ReferenceIdeal.S32x48, .f32⟩ : BufTy).Contents (Elt F)) (x5 : (⟨Cert.ReferenceIdeal.S48, .f32⟩ : BufTy).Contents (Elt F)) :
    val_main_v44 (F := F) x0 x1 x2 x3 x4 x5
      = segMean96 (F := F) (Host.gather Cert.KernelIdeal.gather_S100000x96_S1600000x1_S1600000x96_1_0_n_n_0_1_196
          (val_main_v25 (F := F) x0 x1 x2 x3 x4 x5) (wrapCol (F := F) x2)) x3 := rfl

/-- The reference's neighbour means of the hidden array. -/
theorem ref_nb2 (x0 : (⟨Cert.ReferenceIdeal.S100000x48, .f32⟩ : BufTy).Contents (Elt F)) (x1 : (⟨Cert.ReferenceIdeal.S1600000x32, .f32⟩ : BufTy).Contents (Elt F)) (x2 x3 : (⟨Cert.ReferenceIdeal.S1600000, .i32⟩ : BufTy).Contents (Elt F)) (x4 : (⟨Cert.ReferenceIdeal.S32x48, .f32⟩ : BufTy).Contents (Elt F)) (x5 : (⟨Cert.ReferenceIdeal.S48, .f32⟩ : BufTy).Contents (Elt F)) (x6 x7 : (⟨Cert.ReferenceIdeal.S96x128, .f32⟩ : BufTy).Contents (Elt F)) (x8 : (⟨Cert.ReferenceIdeal.S128, .f32⟩ : BufTy).Contents (Elt F)) :
    val_main_v70 (F := F) x0 x1 x2 x3 x4 x5 x6 x7 x8
      = segMean128 (F := F) (Host.gather Cert.KernelIdeal.gather_S100000x128_S1600000x1_S1600000x128_1_0_n_n_0_1_1128
          (val_main_v51 (F := F) x0 x1 x2 x3 x4 x5 x6 x7 x8) (wrapCol (F := F) x2)) x3 := rfl

end Cert.Sage

end
-- ==== Proof.TakeRange.lean ====
/-
  Under the precondition every source index lies in [0, 99999]. Then no index is negative (the wrap leaves it alone)
  and none falls outside the table, so the range test of each gather is true on every edge and the gather's fill
  pattern is never selected: the masked gather is the plain gather.
-/
import proofs.«414895_j2697239462581_2_alg».proof.Defs
import proofs.«414895_j2697239462581_2_alg».proof.Proof.Gen.Pre_finite_inputs
import proofs.«414895_j2697239462581_2_alg».proof.Proof.HostGlue
import Idealize.ShloMosaic.Lib.StableHlo.Predicate
import Idealize.ShloMosaic.Lib.ReduceAll

noncomputable section

namespace Cert.Sage

open Cert.KernelIdeal Cert.KernelIdeal.Gen Idealize.ShloMosaic Idealize.ShloMosaic.TcCoe Idealize.SL.Sem Idealize.ShloMosaic.StableHlo

/-! ## Words: a source index in [0, 100000) -/

/-- A word that is at least 0 and below 100000 as a signed number has its unsigned value below 100000. -/
theorem toNat_lt_of_signed_range (w : BitVec 32) (h0 : IntOp.cmpi .sge w 0#32 = 1#1) (h1 : IntOp.cmpi .slt w 100000#32 = 1#1) :
    w.toNat < 100000 := by
  have e0 : (0#32 : BitVec 32).toInt = 0 := by decide
  have e1 : (100000#32 : BitVec 32).toInt = 100000 := by decide
  have hlo : (0 : Int) ≤ w.toInt := by
    have := (Predicate.ofBool_eq_one_iff _).1 h0
    simpa only [BitVec.sle, e0, decide_eq_true_eq] using this
  have hhi : w.toInt < 100000 := by
    have := (Predicate.ofBool_eq_one_iff _).1 h1
    simpa only [BitVec.slt, e1, decide_eq_true_eq] using this
  have hlt := w.isLt
  rw [BitVec.toInt_eq_toNat_cond] at hlo hhi
  split at hlo <;> omega

/-- Such a word is not negative: the wrap leaves it as it is. -/
theorem wrap_word (w : BitVec 32) (hw : w.toNat < 100000) :
    Scalar.select (IntOp.cmpi .slt w 0#32) (IntOp.addi w 100000#32) w = w := by
  have hneg : ¬ IntOp.cmpi .slt w 0#32 = 1#1 := by
    rw [Predicate.slt_iff_toNat (by omega) (by decide)]
    exact Nat.not_lt_zero _
  exact if_neg hneg

/-- Such a word passes the range test of the gathers. -/
theorem range_word (w : BitVec 32) (hw : w.toNat < 100000) :
    IntOp.andi (IntOp.cmpi .sge w 0#32) (IntOp.cmpi .sle w 99999#32) = 1#1 := by
  refine IntOp.andi_eq_one.2 ⟨?_, ?_⟩
  · rw [Predicate.sge_iff_toNat (by omega) (by decide)]
    exact Nat.zero_le _
  · rw [Predicate.sle_iff_toNat (by omega) (by decide)]
    show w.toNat ≤ 99999
    omega

/-! ## A conjunction over an axis whose entries are all ones is one -/

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-! ## The precondition's last conjunct, read back -/

/-- The last part of the printed precondition being one says: every entry passed the first compare it was handed,
    and every index is below 100000 as a signed word. -/
theorem part3_read (a : IVec Cert.Pre_finite_inputs.S1600000 32) (v48 : IVec Cert.Pre_finite_inputs.S_ 1)
    (v50 : IVec Cert.Pre_finite_inputs.S1600000 1) (j : Cert.Pre_finite_inputs.S_.Idx)
    (h : Cert.Pre_finite_inputs.fn_part3 (F := Ideal) a v48 v50 j = 1#1) (i : Cert.Pre_finite_inputs.S1600000.Idx) :
    v50 i = 1#1 ∧ IntOp.cmpi .slt (a i) 100000#32 = 1#1 := by
  unfold Cert.Pre_finite_inputs.fn_part3 at h
  have h2 := (IntOp.andi_eq_one.1 h).2
  have h3 := Host.reduce_andi_eq_one _ _ _ _ j h2 i (funext fun d => d.elim0)
  exact IntOp.andi_eq_one.1 h3

/-- Under the precondition every source index is in [0, 100000). -/
theorem src_small (m : (ℓ : Loc nD τ sig) → Buf (Elt Ideal) ℓ) (hpre : Cert.Pre_KernelIdeal m) (c : Dev nD)
    (k : S1600000.Idx) : (m ((c.tc : Thread nD τ).loc main_arg2) k).toNat < 100000 := by
  have e := congrFun (hpre c) (fun a => a.elim0)
  obtain ⟨v48, hv⟩ : ∃ v48, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11))
      = Cert.Pre_finite_inputs.fn_part3 (F := Ideal) (m ((c.tc : Thread nD τ).loc main_arg2)) v48
          (cmpi .sge (m ((c.tc : Thread nD τ).loc main_arg2))
            (broadcastInDim Cert.Pre_finite_inputs.S1600000 ![] Cert.Pre_finite_inputs.Facts.bcast_S_S1600000 (constantI Cert.Pre_finite_inputs.S_ 32 0#32))) :=
    ⟨_, rfl⟩
  rw [hv] at e
  obtain ⟨h0, h1⟩ := part3_read _ _ _ _ e k
  exact toNat_lt_of_signed_range _ h0 h1

/-! ## The range test -/

/-- Where every source index is in [0, 100000), the range test holds on every edge. -/
theorem inRange_of_small (src : (⟨S1600000, .i32⟩ : BufTy).Contents (Elt Ideal)) (hsrc : ∀ k, (src k).toNat < 100000) :
    inRange (F := Ideal) src = fun _ => 1#1 := by
  funext j
  unfold inRange
  refine reduce_andi_ones _ _ _ _ rfl (fun i => ?_) j
  obtain ⟨k, hk⟩ : ∃ k, wrapCol (F := Ideal) src i
      = Scalar.select (IntOp.cmpi .slt (src k) 0#32) (IntOp.addi (src k) 100000#32) (src k) := ⟨_, rfl⟩
  show IntOp.andi (IntOp.cmpi .sge (wrapCol (F := Ideal) src i) 0#32) (IntOp.cmpi .sle (wrapCol (F := Ideal) src i) 99999#32) = 1#1
  rw [hk, wrap_word _ (hsrc k)]
  exact range_word _ (hsrc k)

/-- Under the precondition the range test of the gathers holds on every edge. -/
theorem inRange_of_pre (m : (ℓ : Loc nD τ sig) → Buf (Elt Ideal) ℓ) (hpre : Cert.Pre_KernelIdeal m) (c : Dev nD) :
    inRange (F := Ideal) (m ((c.tc : Thread nD τ).loc main_arg2)) = fun _ => 1#1 :=
  inRange_of_small _ (src_small m hpre c)

/-- Where the range test holds everywhere, the masked 48-wide gather is the plain one. -/
theorem take48_of_inRange (x : (⟨S100000x48, .f32⟩ : BufTy).Contents (Elt Ideal)) (src : (⟨S1600000, .i32⟩ : BufTy).Contents (Elt Ideal))
    (h : inRange (F := Ideal) src = fun _ => 1#1) :
    take48 (F := Ideal) x src = Host.gather gather_S100000x48_S1600000x1_S1600000x48_1_0_n_n_0_1_148 x (wrapCol (F := Ideal) src) := by
  funext i
  unfold take48
  rw [h]
  show Scalar.select (1#1 : BitVec 1) _ _ = _
  exact if_pos rfl

/-- The same for the 96-wide gather. -/
theorem take96_of_inRange (x : (⟨S100000x96, .f32⟩ : BufTy).Contents (Elt Ideal)) (src : (⟨S1600000, .i32⟩ : BufTy).Contents (Elt Ideal))
    (h : inRange (F := Ideal) src = fun _ => 1#1) :
    take96 (F := Ideal) x src = Host.gather gather_S100000x96_S1600000x1_S1600000x96_1_0_n_n_0_1_196 x (wrapCol (F := Ideal) src) := by
  funext i
  unfold take96
  rw [h]
  show Scalar.select (1#1 : BitVec 1) _ _ = _
  exact if_pos rfl

/-- The same for the 128-wide gather. -/
theorem take128_of_inRange (x : (⟨S100000x128, .f32⟩ : BufTy).Contents (Elt Ideal)) (src : (⟨S1600000, .i32⟩ : BufTy).Contents (Elt Ideal))
    (h : inRange (F := Ideal) src = fun _ => 1#1) :
    take128 (F := Ideal) x src = Host.gather gather_S100000x128_S1600000x1_S1600000x128_1_0_n_n_0_1_1128 x (wrapCol (F := Ideal) src) := by
  funext i
  unfold take128
  rw [h]
  show Scalar.select (1#1 : BitVec 1) _ _ = _
  exact if_pos rfl

end Cert.Sage

end
-- ==== Proof.Net.lean ====
/-
  The kernel program's result is the reference's function of the argument arrays. With every source index in range the
  three masked gathers are plain gathers, and the stages then match the reference's one by one: the messages, the
  concatenated features, the hidden array, the result. The only algebra is that the edge stage multiplies the gathered rows
  and the rectified encoding in either order, which the edge-stage module has already absorbed.
-/
import proofs.«414895_j2697239462581_2_alg».proof.Proof.Fold
import proofs.«414895_j2697239462581_2_alg».proof.Proof.Bridge
import proofs.«414895_j2697239462581_2_alg».proof.Proof.TakeRange

noncomputable section

namespace Cert.Sage

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)
  (hr : inRange (F := Ideal) (m ((c : Thread nD τ).loc main_arg2)) = fun _ => 1#1)
include hr

/-- The messages at the first launch's exit are the reference's. -/
theorem msgs_eq : msgs m ρ c = val_main_v12 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [ref_msgs]
  exact (W2_v1 m ρ c).trans (congrArg (fun g => edgeGate (F := Ideal) (m ((c : Thread nD τ).loc main_arg1)) g (m ((c : Thread nD τ).loc main_arg4)) (m ((c : Thread nD τ).loc main_arg5))) (take48_of_inRange _ _ hr))

/-- The concatenated features are the reference's. -/
theorem feats_eq : feats m ρ c = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ref_feats, ← msgs_eq m ρ c hr]
  exact W3_v14 m ρ c

/-- The hidden array is the reference's. -/
theorem hidden_eq : hidden m ρ c = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [val_main_v51_eq, ref_nb1, ← feats_eq m ρ c hr, ← take96_of_inRange _ _ hr]
  exact W6_v28 m ρ c

/-- The result buffer at the last boundary is the reference's result. -/
theorem result_eq : W9 m ρ c (Proc.devRef .tc main_v42) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [val_main_v76_eq', ref_nb2, ← hidden_eq m ρ c hr, ← take128_of_inRange _ _ hr]
  exact W9_v42 m ρ c

end Cert.Sage

end
-- ==== Proof.lean ====
/-
  Equivalence of a three-launch graph network with its reference over the extended reals.
  Both programs compute, for node features x, edge features e, edge endpoints (src, dst) and six weight arrays,
      m  = x[src] ⊙ relu (e · We + be),           h  = [x | mean_dst m],
      h1 = relu (h · W1s + mean_dst (h[src]) · W1n + b1),
      out = h1 · W2s + mean_dst (h1[src]) · W2n + b2,
  where mean_dst adds edge rows into their destination node and divides by max(in-degree, 1). The kernel program runs the
  three dense stages as launches over row blocks and leaves the gathers and neighbour means to host operations; its
  gathers replace an out-of-range row by a fill pattern where the reference's indexing clamps, so the statement carries
  the precondition that every source index lies in [0, 99999], under which the fill is never selected.
  The frames of the two kernel programs are the generated ones; the reference's frame is its generated run; the ideal
  pass's ledger is empty. For the value claim the kernel program's run is re-posted with the result buffer at the last
  boundary's contents, those contents are read back stage by stage to the reference's own function of the arguments,
  and the reference's run ends at that function by its generated read-back.
-/
import proofs.«414895_j2697239462581_2_alg».proof.Defs
import proofs.«414895_j2697239462581_2_alg».proof.Proof.Gen.Kernel
import proofs.«414895_j2697239462581_2_alg».proof.Proof.Gen.Kernel.Frame
import proofs.«414895_j2697239462581_2_alg».proof.Proof.Gen.KernelIdeal
import proofs.«414895_j2697239462581_2_alg».proof.Proof.Gen.KernelIdeal.Frame
import proofs.«414895_j2697239462581_2_alg».proof.Proof.Gen.ReferenceIdeal
import proofs.«414895_j2697239462581_2_alg».proof.Proof.Gen.ReferenceIdeal.Run
import proofs.«414895_j2697239462581_2_alg».proof.Proof.Gen.ReferenceIdeal.Read
import proofs.«414895_j2697239462581_2_alg».proof.Proof.Gen.Pre_finite_inputs
import proofs.«414895_j2697239462581_2_alg».proof.Proof.ResultFrame
import proofs.«414895_j2697239462581_2_alg».proof.Proof.Net
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the reference's function of the (agreeing) argument arrays. -/
theorem algebraic : Cert.algebraic_KernelIdeal_ReferenceIdeal := by
  intro m ρ m' ρ' hpre hagree
  refine ⟨fun c => Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Sage.result_eq m ρ c (Cert.Sage.inRange_of_pre m hpre c)), (h c).2⟩)
      (Cert.KernelIdeal.ResultFrame.frame_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v76_eq]
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
